-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S3200000 : Shape := ⟨1, ![3200000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S3200000 : S_.BroadcastsInDim S3200000 (![] : Fin 0 → Fin S3200000.rank)
  reducesTo_S3200000_S_d0 : S3200000.ReducesTo [0] S_

variable [Facts]

def fn_part1 {F : FTy → Type} [FloatOps F] (main_arg3 : IVec S3200000 32) (main_v13 : IVec S_ 1) (main_v15 : IVec S3200000 1) (main_c_5 : IVec S_ 32) : IVec S_ 1 :=
  let main_v16 : IVec S3200000 32 := broadcastInDim S3200000 ![] bcast_S_S3200000 main_c_5
  let main_v17 : IVec S3200000 1 := cmpi .slt main_arg3 main_v16
  let main_v18 : IVec S3200000 1 := andi main_v15 main_v17
  let main_c_6 : IVec S_ 1 := constantI S_ 1 1#1
  let main_v19 : IVec S_ 1 := (fun x v => Host.reduce IntOp.andi x v reducesTo_S3200000_S_d0 h_S_) main_v18 main_c_6
  let main_v20 : IVec S_ 1 := andi main_v13 main_v19
  main_v20

def fn {F : FTy → Type} [FloatOps F] (main_arg0 : FVec F S100000x128 .f32) (main_arg1 : FVec F S128x64 .f32) (main_arg2 : FVec F S3200000 .f32) (main_arg3 : IVec S3200000 32) (main_arg4 : IVec S3200000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S3200000 .f32 := Host.absf main_arg2
  let main_cst_2 : FVec F S_ .f32 := constant S_ .f32 0x7F800000#32
  let main_v10 : FVec F S3200000 .f32 := broadcastInDim S3200000 ![] bcast_S_S3200000 main_cst_2
  let main_v11 : IVec S3200000 1 := cmpf .olt main_v9 main_v10
  let main_c_3 : IVec S_ 1 := constantI S_ 1 1#1
  let main_v12 : IVec S_ 1 := (fun x v => Host.reduce IntOp.andi x v reducesTo_S3200000_S_d0 h_S_) main_v11 main_c_3
  let main_v13 : IVec S_ 1 := andi main_v8 main_v12
  let main_c_4 : IVec S_ 32 := constantI S_ 32 4294867296#32
  let main_v14 : IVec S3200000 32 := broadcastInDim S3200000 ![] bcast_S_S3200000 main_c_4
  let main_v15 : IVec S3200000 1 := cmpi .sge main_arg3 main_v14
  let main_c_5 : IVec S_ 32 := constantI S_ 32 100000#32
  fn_part1 (F := F) main_arg3 main_v13 main_v15 main_c_5
-- ==== Kernel.lean ====
abbrev S100000x128 : Shape := ⟨2, ![100000, 128]⟩
abbrev S128x64 : Shape := ⟨2, ![128, 64]⟩
abbrev S3200000 : Shape := ⟨1, ![3200000]⟩
abbrev S100000x64 : Shape := ⟨2, ![100000, 64]⟩
abbrev S5000x128 : Shape := ⟨2, ![5000, 128]⟩
abbrev S5000x64 : Shape := ⟨2, ![5000, 64]⟩
abbrev S_ : Shape := ⟨0, ![]⟩
abbrev S3200000x1 : Shape := ⟨2, ![3200000, 1]⟩
abbrev S1 : Shape := ⟨1, ![1]⟩
abbrev S1x1 : Shape := ⟨2, ![1, 1]⟩
abbrev S3200000x64 : Shape := ⟨2, ![3200000, 64]⟩
abbrev S1x64 : Shape := ⟨2, ![1, 64]⟩
abbrev S64 : Shape := ⟨1, ![64]⟩

abbrev nBuf : Space → Nat
  | .hbm => 53
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S3200000, .f32⟩
  | .hbm, ⟨3, _⟩ => ⟨S3200000, .i32⟩
  | .hbm, ⟨4, _⟩ => ⟨S3200000, .i32⟩
  | .hbm, ⟨5, _⟩ => ⟨S100000x64, .f32⟩
  | .hbm, ⟨6, _⟩ => ⟨S_, .i32⟩
  | .hbm, ⟨7, _⟩ => ⟨S3200000, .i32⟩
  | .hbm, ⟨8, _⟩ => ⟨S3200000, .i1⟩
  | .hbm, ⟨9, _⟩ => ⟨S_, .i32⟩
  | .hbm, ⟨10, _⟩ => ⟨S3200000, .i32⟩
  | .hbm, ⟨11, _⟩ => ⟨S3200000, .i32⟩
  | .hbm, ⟨12, _⟩ => ⟨S3200000, .i32⟩
  | .hbm, ⟨13, _⟩ => ⟨S3200000x1, .i32⟩
  | .hbm, ⟨14, _⟩ => ⟨S1, .i32⟩
  | .hbm, ⟨15, _⟩ => ⟨S_, .i32⟩
  | .hbm, ⟨16, _⟩ => ⟨S3200000x1, .i32⟩
  | .hbm, ⟨17, _⟩ => ⟨S3200000x1, .i1⟩
  | .hbm, ⟨18, _⟩ => ⟨S1x1, .i32⟩
  | .hbm, ⟨19, _⟩ => ⟨S3200000x1, .i32⟩
  | .hbm, ⟨20, _⟩ => ⟨S3200000x1, .i1⟩
  | .hbm, ⟨21, _⟩ => ⟨S3200000x1, .i1⟩
  | .hbm, ⟨22, _⟩ => ⟨S_, .i1⟩
  | .hbm, ⟨23, _⟩ => ⟨S3200000, .i1⟩
  | .hbm, ⟨24, _⟩ => ⟨S3200000x64, .f32⟩
  | .hbm, ⟨25, _⟩ => ⟨S3200000x64, .i1⟩
  | .hbm, ⟨26, _⟩ => ⟨S_, .f32⟩
  | .hbm, ⟨27, _⟩ => ⟨S3200000x64, .f32⟩
  | .hbm, ⟨28, _⟩ => ⟨S3200000x64, .f32⟩
  | .hbm, ⟨29, _⟩ => ⟨S3200000x1, .f32⟩
  | .hbm, ⟨30, _⟩ => ⟨S3200000x64, .f32⟩
  | .hbm, ⟨31, _⟩ => ⟨S3200000x64, .f32⟩
  | .hbm, ⟨32, _⟩ => ⟨S_, .f32⟩
  | .hbm, ⟨33, _⟩ => ⟨S100000x64, .f32⟩
  | .hbm, ⟨34, _⟩ => ⟨S3200000x1, .i32⟩
  | .hbm, ⟨35, _⟩ => ⟨S100000x64, .f32⟩
  | .hbm, ⟨36, _⟩ => ⟨S1x64, .f32⟩
  | .hbm, ⟨37, _⟩ => ⟨S1x64, .f32⟩
  | .hbm, ⟨38, _⟩ => ⟨S_, .f32⟩
  | .hbm, ⟨39, _⟩ => ⟨S1x64, .f32⟩
  | .hbm, ⟨40, _⟩ => ⟨S1x64, .f32⟩
  | .hbm, ⟨41, _⟩ => ⟨S_, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S1x64, .f32⟩
  | .hbm, ⟨46, _⟩ => ⟨S_, .f32⟩
  | .hbm, ⟨47, _⟩ => ⟨S1x64, .f32⟩
  | .hbm, ⟨48, _⟩ => ⟨S1x64, .f32⟩
  | .hbm, ⟨49, _⟩ => ⟨S1x64, .f32⟩
  | .hbm, ⟨50, _⟩ => ⟨S1x64, .f32⟩
  | .hbm, ⟨51, _⟩ => ⟨S1x64, .f32⟩
  | .hbm, ⟨52, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S1x64, .f32⟩
  | .local _ .vmem, ⟨12, _⟩ => ⟨S1x64, .f32⟩
  | .local _ .vmem, ⟨13, _⟩ => ⟨S5000x64, .f32⟩
  | .local _ .vmem, ⟨14, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8_0 : Ref sig .tc := ⟨.hbm, 36, rfl⟩
abbrev main_v8_1 : Ref sig .tc := ⟨.hbm, 37, rfl⟩
abbrev main_cst_0 : Ref sig .tc := ⟨.hbm, 38, rfl⟩
abbrev main_v9 : Ref sig .tc := ⟨.hbm, 39, rfl⟩
abbrev main_v10 : Ref sig .tc := ⟨.hbm, 40, rfl⟩
abbrev main_cst_1 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_cst_2 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem3_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3200000x64_0 : S3200000.BroadcastsInDim S3200000x64 (![0] : Fin 1 → Fin S3200000x64.rank)
  bcast_S_S3200000x64 : S_.BroadcastsInDim S3200000x64 (![] : Fin 0 → Fin S3200000x64.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  inb_S1x64_S1x64_0_0 : ∀ a, (![0, 0] : Fin 2 → Nat) a + S1x64.size a ≤ S1x64.size a
  h_S1x64 : 0 < S1x64.numel
  shapeCasts_S5000x64_S5000x64 : S5000x64.ShapeCasts S5000x64
  shapeCasts_S1x64_S1x64 : S1x64.ShapeCasts S1x64
  reduces_S5000x64_S64 : S5000x64.Reduces [0] S64
  shapeCasts_S64_S1x64 : S64.ShapeCasts S1x64
  bcast_S_S1x64 : S_.BroadcastsInDim S1x64 (![] : Fin 0 → Fin S1x64.rank)
  broadcasts_S1x64_S5000x64 : S1x64.Broadcasts S5000x64
  dot_S5000x128_S128x64_S5000x64_1_0_0_1_n_n_wf : DotDims.WF S5000x128 S128x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v7) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S3200000 : Shape := ⟨1, ![3200000]⟩
abbrev S100000x64 : Shape := ⟨2, ![100000, 64]⟩
abbrev S3200000x1 : Shape := ⟨2, ![3200000, 1]⟩
abbrev S_ : Shape := ⟨0, ![]⟩
abbrev S3200000x64 : Shape := ⟨2, ![3200000, 64]⟩
abbrev S64 : Shape := ⟨1, ![64]⟩
abbrev S1x64 : Shape := ⟨2, ![1, 64]⟩

abbrev nBuf : Space → Nat
  | .hbm => 63
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S3200000, .f32⟩
  | .hbm, ⟨3, _⟩ => ⟨S3200000, .i32⟩
  | .hbm, ⟨4, _⟩ => ⟨S3200000, .i32⟩
  | .hbm, ⟨5, _⟩ => ⟨S100000x64, .f32⟩
  | .hbm, ⟨6, _⟩ => ⟨S3200000x1, .f32⟩
  | .hbm, ⟨7, _⟩ => ⟨S_, .i32⟩
  | .hbm, ⟨8, _⟩ => ⟨S3200000, .i32⟩
  | .hbm, ⟨9, _⟩ => ⟨S3200000, .i1⟩
  | .hbm, ⟨10, _⟩ => ⟨S_, .i32⟩
  | .hbm, ⟨11, _⟩ => ⟨S3200000, .i32⟩
  | .hbm, ⟨12, _⟩ => ⟨S3200000, .i32⟩
  | .hbm, ⟨13, _⟩ => ⟨S3200000, .i32⟩
  | .hbm, ⟨14, _⟩ => ⟨S3200000x1, .i32⟩
  | .hbm, ⟨15, _⟩ => ⟨S3200000x64, .f32⟩
  | .hbm, ⟨16, _⟩ => ⟨S3200000x64, .f32⟩
  | .hbm, ⟨17, _⟩ => ⟨S3200000x64, .f32⟩
  | .hbm, ⟨18, _⟩ => ⟨S_, .f32⟩
  | .hbm, ⟨19, _⟩ => ⟨S100000x64, .f32⟩
  | .hbm, ⟨20, _⟩ => ⟨S3200000x1, .i32⟩
  | .hbm, ⟨21, _⟩ => ⟨S100000x64, .f32⟩
  | .hbm, ⟨22, _⟩ => ⟨S_, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S_, .i32⟩
  | .hbm, ⟨28, _⟩ => ⟨S_, .f32⟩
  | .hbm, ⟨29, _⟩ => ⟨S64, .f32⟩
  | .hbm, ⟨30, _⟩ => ⟨S1x64, .f32⟩
  | .hbm, ⟨31, _⟩ => ⟨S_, .f32⟩
  | .hbm, ⟨32, _⟩ => ⟨S1x64, .f32⟩
  | .hbm, ⟨33, _⟩ => ⟨S1x64, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S64, .f32⟩
  | .hbm, ⟨44, _⟩ => ⟨S_, .f32⟩
  | .hbm, ⟨45, _⟩ => ⟨S_, .i1⟩
  | .hbm, ⟨46, _⟩ => ⟨S_, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S1x64, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S64, .f32⟩
  | .hbm, ⟨57, _⟩ => ⟨S1x64, .f32⟩
  | .hbm, ⟨58, _⟩ => ⟨S100000x64, .f32⟩
  | .hbm, ⟨59, _⟩ => ⟨S100000x64, .f32⟩
  | .hbm, ⟨60, _⟩ => ⟨S_, .f32⟩
  | .hbm, ⟨61, _⟩ => ⟨S100000x64, .f32⟩
  | .hbm, ⟨62, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_cst_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_cst_1 : Ref sig .tc := ⟨.hbm, 38, rfl⟩
abbrev main_call0_v8 : Ref sig .tc := ⟨.hbm, 39, rfl⟩
abbrev main_call0_cst_2 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_cst_3 : Ref sig .tc := ⟨.hbm, 44, rfl⟩
abbrev main_call0_v12 : Ref sig .tc := ⟨.hbm, 45, rfl⟩
abbrev main_call0_cst_4 : Ref sig .tc := ⟨.hbm, 46, rfl⟩
abbrev main_call0_call0_v0 : Ref sig .tc := ⟨.hbm, 47, rfl⟩
abbrev main_call0_call0_v1 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_4 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_call1_cst : Ref sig .tc := ⟨.hbm, 60, rfl⟩
abbrev main_call1_v0 : Ref sig .tc := ⟨.hbm, 61, rfl⟩
abbrev main_v27 : Ref sig .tc := ⟨.hbm, 62, rfl⟩

abbrev nD : Nat := 1
abbrev τ : Topo := Topo.v7x

variable {F : FTy → Type} [FloatOps F]

class Facts₀ : Prop where
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  reducesTo_S100000x64_S64_d0 : S100000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  dot_S100000x128_S128x64_S100000x64_1_0_0_1_n_n_wf : DotDims.WF S100000x128 S128x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

class Facts : Prop extends Facts₀ where

variable [Facts]
-- ==== Proof.Spec.lean ====
/-
  The mathematics both programs share, stated over the extended reals with no program in sight.

  An array `o` of 100000 rows and 64 columns is normalised column by column and clipped below at zero. One
  program forms, per column `q`, the sum `S₁ = ∑ₚ o(p,q)` and the sum of squares `S₂ = ∑ₚ o(p,q)²`, then
  `μ = S₁/N`, `s = 1/√(S₂/N − μ² + ε)` and returns `max (o·s + (−μ)·s) 0`; the other forms
  `μ = S₁/N`, the centred second moment `v = ∑ₚ (o(p,q) − μ)² / N` and returns `max ((o − μ)·(1/√(v + ε))) 0`.
  Over the reals `S₂/N − μ² = v` (expand the square, `∑ₚ o = N·μ`) and `o·s + (−μ)·s = (o − μ)·s`; on the
  extended reals both steps need every entry of `o`, and `s`, to be a real number, and `s` is one because
  `v ≥ 0` and `ε > 0`.
-/
import Idealize.ShloMosaic.PureOps.Ideal
import Idealize.ShloMosaic.Lib.ValueIdx

noncomputable section

open scoped BigOperators

namespace Cert.Spec

open Idealize.ShloMosaic Idealize.ShloMosaic.ValueIdx

/-- 100000 rows of 64 columns. -/
abbrev SN : Shape := ⟨2, ![100000, 64]⟩
/-- 100000 rows of 128 columns. -/
abbrev SX : Shape := ⟨2, ![100000, 128]⟩
/-- 128 rows of 64 columns. -/
abbrev SW : Shape := ⟨2, ![128, 64]⟩

/-- An extended real that is a real number. -/
def IsReal (v : EReal) : Prop := ∃ r : ℝ, v = (r : EReal)

/-- The row count 100000 as the float both programs divide by. -/
def nN : EReal := Ideal.ofBits .f32 0x47C35000#32
/-- The float nearest 0.001 that both programs add under the root. -/
def eps : EReal := Ideal.ofBits .f32 0x3A83126F#32

/-- The matrix product, entry by entry: row `i 0` of `x` against column `i 1` of `w`. -/
def matmul (x : SX.Idx → EReal) (w : SW.Idx → EReal) : SN.Idx → EReal :=
  fun i => ∑ k : Fin 128, x (ix2 (i 0) k) * w (ix2 k (i 1))

/-- Column `q`'s sum. -/
def colSum (o : SN.Idx → EReal) (q : Fin 64) : EReal := ∑ p : Fin 100000, o (ix2 p q)
/-- Column `q`'s sum of squares. -/
def colSumSq (o : SN.Idx → EReal) (q : Fin 64) : EReal := ∑ p : Fin 100000, o (ix2 p q) * o (ix2 p q)
/-- Column `q`'s mean. -/
def mean (o : SN.Idx → EReal) (q : Fin 64) : EReal := Ideal.div (colSum o q) nN

/-- The scale from the two sums: `1/√(S₂/N − μ² + ε)`. -/
def scaleK (o : SN.Idx → EReal) (q : Fin 64) : EReal :=
  Ideal.rsqrt (Ideal.div (colSumSq o q) nN - mean o q * mean o q + eps)
/-- The shift `(−μ)·s`. -/
def shiftK (o : SN.Idx → EReal) (q : Fin 64) : EReal := -(mean o q) * scaleK o q
/-- Normalise by scale and shift, clip at zero. -/
def bnK (o : SN.Idx → EReal) : SN.Idx → EReal := fun i => max (o i * scaleK o (i 1) + shiftK o (i 1)) 0

/-- The centred second moment of column `q`. -/
def varR (o : SN.Idx → EReal) (q : Fin 64) : EReal :=
  Ideal.div (∑ p : Fin 100000, (o (ix2 p q) - mean o q) * (o (ix2 p q) - mean o q)) nN
/-- Centre, scale by `1/√(v + ε)`, clip at zero. -/
def bnR (o : SN.Idx → EReal) : SN.Idx → EReal :=
  fun i => max ((o i - mean o (i 1)) * Ideal.rsqrt (varR o (i 1) + eps)) 0

/-! ## Real numbers among the extended reals -/

theorem isReal_coe (r : ℝ) : IsReal (r : EReal) := ⟨r, rfl⟩
theorem isReal_zero : IsReal 0 := ⟨0, rfl⟩
theorem isReal_add {a b : EReal} (ha : IsReal a) (hb : IsReal b) : IsReal (a + b) := by
  obtain ⟨x, rfl⟩ := ha
  obtain ⟨y, rfl⟩ := hb
  exact ⟨x + y, (EReal.coe_add x y).symm⟩
theorem isReal_mul {a b : EReal} (ha : IsReal a) (hb : IsReal b) : IsReal (a * b) := by
  obtain ⟨x, rfl⟩ := ha
  obtain ⟨y, rfl⟩ := hb
  exact ⟨x * y, (EReal.coe_mul x y).symm⟩
theorem isReal_sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact isReal_add (h a (Finset.mem_insert_self a s)) (ih fun i hi => h i (Finset.mem_insert_of_mem hi))

/-- The product of two arrays of reals has real entries. -/
theorem matmul_real (x : SX.Idx → EReal) (w : SW.Idx → EReal) (hx : ∀ i, IsReal (x i)) (hw : ∀ i, IsReal (w i)) :
    ∀ i, IsReal (matmul x w i) := by
  intro i
  exact isReal_sum _ _ fun k _ => isReal_mul (hx _) (hw _)

/-! ## The two constants -/

/-- The divisor is the real number 100000. -/
theorem nN_eq : nN = ((100000 : ℝ) : EReal) := by
  simp [nN, Ideal.ofBits, Ideal.ieee, -EReal.coe_mul]; norm_num

/-- The added constant is the positive real `8589935 · 2⁻³³`. -/
theorem eps_eq : eps = ((8589935 / 8589934592 : ℝ) : EReal) := by
  simp [eps, Ideal.ofBits, Ideal.ieee, -EReal.coe_mul]; norm_num

/-! ## Sums, quotients and roots of real numbers -/

/-- A finite sum of reals, formed among the extended reals, is the real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Dividing a real by `N` is multiplying it by the real `1/N`. -/
theorem div_nN (r : ℝ) : Ideal.div (r : EReal) nN = ((r * (1 / 100000) : ℝ) : EReal) := by
  rw [nN_eq, Ideal.div_coe (by norm_num), ← EReal.coe_mul]

/-- On a positive real the reciprocal root is the real `1/√r`. -/
theorem rsqrt_pos {r : ℝ} (hr : 0 < r) : Ideal.rsqrt (r : EReal) = (((Real.sqrt r)⁻¹ : ℝ) : EReal) := by
  rw [Ideal.rsqrt_coe, if_neg (not_lt.mpr hr.le), if_neg hr.ne']

/-- Mean of squares minus squared mean is the mean squared deviation: expand `(g − μ)²` and use `∑ g = N·μ`. -/
theorem centred_moment {ι : Type} [Fintype ι] (g : ι → ℝ) (N : ℝ) (hN : (Fintype.card ι : ℝ) = N) (h0 : N ≠ 0) :
    (∑ i, g i * g i) * (1 / N) - ((∑ i, g i) * (1 / N)) * ((∑ i, g i) * (1 / N))
      = (∑ i, (g i - (∑ j, g j) * (1 / N)) * (g i - (∑ j, g j) * (1 / N))) * (1 / N) := by
  generalize hμ : (∑ j, g j) * (1 / N) = μ
  have hS : (∑ j, g j) = N * μ := by rw [← hμ]; field_simp
  have h : ∑ i, (g i - μ) * (g i - μ) = (∑ i, g i * g i) - 2 * μ * (∑ i, g i) + N * (μ * μ) := by
    have e : ∀ i, (g i - μ) * (g i - μ) = g i * g i - 2 * μ * g i + μ * μ := fun i => by ring
    simp only [e, Finset.sum_add_distrib, Finset.sum_sub_distrib, ← Finset.mul_sum, Finset.sum_const,
      Finset.card_univ, nsmul_eq_mul, hN]
    ring
  rw [h, hS]
  field_simp
  ring

/-! ## The two normalisations on an array of reals -/

/-- The column mean of an array of reals is the real mean. -/
theorem mean_coe (f : SN.Idx → ℝ) (q : Fin 64) :
    mean (fun i => (f i : EReal)) q = (((∑ p : Fin 100000, f (ix2 p q)) * (1 / 100000) : ℝ) : EReal) := by
  simp only [mean, colSum]
  rw [coe_sum, div_nN]

/-- Mean of squares minus squared mean, plus a real `e`, on an array of reals: a real, and by the identity
    above the centred second moment plus `e`. -/
theorem scale_arg (f : SN.Idx → ℝ) (q : Fin 64) (e : ℝ) :
    Ideal.div (colSumSq (fun i => (f i : EReal)) q) nN
        - mean (fun i => (f i : EReal)) q * mean (fun i => (f i : EReal)) q + (e : EReal)
      = (((∑ p : Fin 100000, (f (ix2 p q) - (∑ j : Fin 100000, f (ix2 j q)) * (1 / 100000))
            * (f (ix2 p q) - (∑ j : Fin 100000, f (ix2 j q)) * (1 / 100000))) * (1 / 100000) + e : ℝ) : EReal) := by
  rw [mean_coe]
  simp only [colSumSq]
  simp only [← EReal.coe_mul]
  rw [coe_sum, div_nN, ← EReal.coe_sub, ← EReal.coe_add]
  rw [centred_moment (fun p : Fin 100000 => f (ix2 p q)) 100000 (by simp) (by norm_num)]

/-- The centred second moment of an array of reals is the real one. -/
theorem varR_coe (f : SN.Idx → ℝ) (q : Fin 64) :
    varR (fun i => (f i : EReal)) q
      = (((∑ p : Fin 100000, (f (ix2 p q) - (∑ j : Fin 100000, f (ix2 j q)) * (1 / 100000))
            * (f (ix2 p q) - (∑ j : Fin 100000, f (ix2 j q)) * (1 / 100000))) * (1 / 100000) : ℝ) : EReal) := by
  simp only [varR]
  rw [mean_coe]
  simp only [← EReal.coe_sub, ← EReal.coe_mul]
  rw [coe_sum, div_nN]

/-- The centred second moment is not negative. -/
theorem var_nonneg (g : Fin 100000 → ℝ) (μ : ℝ) : 0 ≤ (∑ p : Fin 100000, (g p - μ) * (g p - μ)) * (1 / 100000) :=
  mul_nonneg (Finset.sum_nonneg fun p _ => mul_self_nonneg _) (by norm_num)

/-- One entry: with `a` the entry and `q` its column, scale-and-shift and centre-and-scale agree. The scale is a
    real because the centred second moment is not negative and the added constant is positive; among reals
    `a·s + (−μ)·s = (a − μ)·s`. -/
theorem bn_entry (f : SN.Idx → ℝ) (q : Fin 64) (a : ℝ) :
    max ((a : EReal) * scaleK (fun i => (f i : EReal)) q + shiftK (fun i => (f i : EReal)) q) 0
      = max (((a : EReal) - mean (fun i => (f i : EReal)) q)
          * Ideal.rsqrt (varR (fun i => (f i : EReal)) q + eps)) 0 := by
  have hv := var_nonneg (fun p : Fin 100000 => f (ix2 p q)) ((∑ j : Fin 100000, f (ix2 j q)) * (1 / 100000))
  have hpos : 0 < (∑ p : Fin 100000, (f (ix2 p q) - (∑ j : Fin 100000, f (ix2 j q)) * (1 / 100000))
            * (f (ix2 p q) - (∑ j : Fin 100000, f (ix2 j q)) * (1 / 100000))) * (1 / 100000)
            + (8589935 / 8589934592 : ℝ) := add_pos_of_nonneg_of_pos hv (by norm_num)
  simp only [scaleK, shiftK]
  rw [eps_eq, scale_arg, varR_coe, ← EReal.coe_add, rsqrt_pos hpos, mean_coe]
  simp only [← EReal.coe_neg, ← EReal.coe_mul, ← EReal.coe_add, ← EReal.coe_sub]
  congr 2
  ring

/-- THE LAW: on an array of real numbers the two normalisations are one function. -/
theorem bn_eq (o : SN.Idx → EReal) (ho : ∀ i, IsReal (o i)) : bnK o = bnR o := by
  choose f hf using ho
  obtain rfl : o = fun i => (f i : EReal) := funext hf
  funext i
  exact bn_entry f (i 1) (f i)

end Cert.Spec

end
-- ==== Proof.PreDecode.lean ====
/-
  What the precondition says, entry by entry: every entry of the three float arrays is a real number, and every
  source index lies in −100000 … 99999 (a valid index of a 100000-row axis, counted from the front or from the end).
-/
import proofs.«416483_j16758962389075_1_alg».proof.Pre_finite_inputs
import Idealize.ShloMosaic.Lib.ReduceAll
import Idealize.ShloMosaic.PureOps.Ideal

noncomputable section

namespace Cert.PreDecode

open Idealize.ShloMosaic Cert.Pre_finite_inputs

variable [Cert.Pre_finite_inputs.Facts]

/-- The shape with no axes has exactly one index. -/
instance : Subsingleton S_.Idx := ⟨fun a b => funext fun d => d.elim0⟩

/-- The f32 pattern with exponent all ones and fraction zero denotes +∞. -/
theorem inf_bits : Ideal.ofBits .f32 0x7F800000#32 = (⊤ : EReal) := by simp [Ideal.ofBits, Ideal.ieee]

/-- An extended real whose absolute value, the larger of it and its negative, lies strictly below +∞ is a real
    number: at +∞ the value itself is +∞, at −∞ its negative is, and neither is below +∞. -/
theorem real_of_abs_lt_inf (x : EReal)
    (h : Ideal.cmp .olt (max x (-x)) (Ideal.ofBits .f32 0x7F800000#32) = 1#1) : ∃ r : ℝ, x = (r : EReal) := by
  rw [inf_bits] at h
  induction x using EReal.rec with
  | bot => exact absurd h (by simp [Ideal.cmp])
  | coe r => exact ⟨r, rfl⟩
  | top => exact absurd h (by simp [Ideal.cmp])

/-- One entry of a float array under "|x| < +∞, everywhere": when the bit at that entry is 1, the entry is real. -/
theorem real_of_entry {s : Shape} (hb : S_.BroadcastsInDim s (![] : Fin 0 → Fin s.rank)) (x : FVec Ideal s .f32) (i : s.Idx)
    (h : cmpf .olt (Host.absf x) (broadcastInDim s ![] hb (constant S_ .f32 0x7F800000#32)) i = 1#1) :
    ∃ r : ℝ, x i = (r : EReal) :=
  real_of_abs_lt_inf (x i) h

/-- The word 4294867296 read signed is −100000, and the word 100000 is 100000. -/
theorem lo_toInt : (4294867296#32 : BitVec 32).toInt = -100000 := by decide
theorem hi_toInt : (100000#32 : BitVec 32).toInt = 100000 := by decide

/-- The precondition all ones means: the float inputs are real entry by entry, and each source index, read signed,
    is at least −100000 and below 100000. -/
theorem decode (a0 : FVec Ideal S100000x128 .f32) (a1 : FVec Ideal S128x64 .f32) (a2 : FVec Ideal S3200000 .f32)
    (a3 a4 : IVec S3200000 32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ ∀ e, (-100000 : ℤ) ≤ (a3 e).toInt ∧ (a3 e).toInt < 100000 := by
  have h0 := congrFun h (fun a => a.elim0)
  dsimp only [fn, fn_part1] at h0
  -- the result bit is the "and" of four bits: the three float tests, then the index test
  obtain ⟨h012, h3⟩ := IntOp.andi_eq_one.1 h0
  obtain ⟨h01, h2⟩ := IntOp.andi_eq_one.1 h012
  obtain ⟨h0', h1⟩ := IntOp.andi_eq_one.1 h01
  refine ⟨fun i => ?_, fun i => ?_, fun i => ?_, fun e => ?_⟩
  · exact real_of_entry _ a0 i (Host.reduce_andi_all _ _ _ _ _ h0' i)
  · exact real_of_entry _ a1 i (Host.reduce_andi_all _ _ _ _ _ h1 i)
  · exact real_of_entry _ a2 i (Host.reduce_andi_all _ _ _ _ _ h2 i)
  · -- at entry e the bit is "a3 e ≥ −100000 (signed)" and "a3 e < 100000 (signed)"
    have he := Host.reduce_andi_all _ _ _ _ _ h3 e
    obtain ⟨hge, hlt⟩ := IntOp.andi_eq_one.1 he
    have hge' := IntOp.cmpi_sge.1 hge
    have hlt' := IntOp.cmpi_slt.1 hlt
    change (4294867296#32 : BitVec 32).toInt ≤ (a3 e).toInt at hge'
    change (a3 e).toInt < (100000#32 : BitVec 32).toInt at hlt'
    rw [lo_toInt] at hge'
    rw [hi_toInt] at hlt'
    exact ⟨hge', hlt'⟩

end Cert.PreDecode

end
-- ==== Proof.KDefs.lean ====
/-
  The kernel program's host arithmetic between its three grid computations, as pure functions of arrays.

  `agg`: rows of the pre-activation array are fetched by source node — a negative index counts from the
  end, and a fetched row is kept only where its index lies in 0 … 99999 (elsewhere the row is the word that
  denotes no number) —, scaled by the edge weight, and summed into the row of the destination node.
  `scale` and `shift`: from a column's sum and sum of squares, `1/√(S₂/N − (S₁/N)² + ε)` and `−(S₁/N)` times it.
-/
import proofs.«416483_j16758962389075_1_alg».proof.KernelIdeal

noncomputable section

namespace Cert.KernelIdeal.KDefs

open Idealize.ShloMosaic Cert.KernelIdeal Cert.KernelIdeal.Facts₀

variable {F : FTy → Type} [FloatOps F] [Cert.KernelIdeal.Facts]

/-- The source index with a negative value counted from the end, as a column of start indices. -/
def startIdx (a3 : IVec S3200000 32) : IVec S3200000x1 32 :=
  broadcastInDim S3200000x1 ![0] bcast_S3200000_S3200000x1_0
    (select (cmpi .slt a3 (broadcastInDim S3200000 ![] bcast_S_S3200000 (constantI S_ 32 0#32)))
      (addi a3 (broadcastInDim S3200000 ![] bcast_S_S3200000 (constantI S_ 32 100000#32))) a3)

/-- Per edge: is the start index inside 0 … 99999? -/
def inRange (a3 : IVec S3200000 32) : IVec S3200000 1 :=
  (fun x v => Host.reduce IntOp.andi x v reducesTo_S3200000x1_S3200000_d1 h_S_)
    (andi (cmpi .sge (startIdx a3) (broadcastInDim S3200000x1 ![] bcast_S_S3200000x1 (constantI S_ 32 0#32)))
      (cmpi .sle (startIdx a3) (broadcastInDim S3200000x1 ![0, 1] bcast_S1x1_S3200000x1_0_1
        (broadcastInDim S1x1 ![1] bcast_S1_S1x1_1 (constantI S1 32 99999#32)))))
    (constantI S_ 1 1#1)

/-- The fetched rows, a row out of range replaced by the word that denotes no number. -/
def taken (pre : FVec F S100000x64 .f32) (a3 : IVec S3200000 32) : FVec F S3200000x64 .f32 :=
  select (broadcastInDim S3200000x64 ![0] bcast_S3200000_S3200000x64_0 (inRange a3))
    ((fun x i => Host.gather gather_S100000x64_S3200000x1_S3200000x64_1_0_n_n_0_1_164 x i) pre (startIdx a3))
    (broadcastInDim S3200000x64 ![] bcast_S_S3200000x64 (constant S_ .f32 0x7FC00000#32))

/-- Weighted rows summed by destination node into an array of zeros. -/
def agg (pre : FVec F S100000x64 .f32) (a2 : FVec F S3200000 .f32) (a3 a4 : IVec S3200000 32) : FVec F S100000x64 .f32 :=
  (fun x i u => Host.scatterAdd scatter_S100000x64_S3200000x1_S3200000x64_1_0_0_1 x i u)
    (broadcastInDim S100000x64 ![] bcast_S_S100000x64 (constant S_ .f32 0x00000000#32))
    (broadcastInDim S3200000x1 ![0] bcast_S3200000_S3200000x1_0 a4)
    (mulf (broadcastInDim S3200000x64 ![0, 1] bcast_S3200000x1_S3200000x64_0_1
        (broadcastInDim S3200000x1 ![0] bcast_S3200000_S3200000x1_0 a2)) (taken pre a3))

/-- Column means from column sums. -/
def meanOf (s1 : FVec F S1x64 .f32) : FVec F S1x64 .f32 :=
  Host.divf s1 (broadcastInDim S1x64 ![] bcast_S_S1x64 (constant S_ .f32 0x47C35000#32))

/-- `1/√(S₂/N − μ² + ε)`. -/
def scale (s1 s2 : FVec F S1x64 .f32) : FVec F S1x64 .f32 :=
  Host.rsqrt (addf (subf (Host.divf s2 (broadcastInDim S1x64 ![] bcast_S_S1x64 (constant S_ .f32 0x47C35000#32)))
      (mulf (meanOf s1) (meanOf s1)))
    (broadcastInDim S1x64 ![] bcast_S_S1x64 (constant S_ .f32 0x3A83126F#32)))

/-- `(−μ)·scale`. -/
def shift (s1 s2 : FVec F S1x64 .f32) : FVec F S1x64 .f32 :=
  mulf (Host.negf (meanOf s1)) (scale s1 s2)

end Cert.KernelIdeal.KDefs

end
-- ==== Proof.RDefs.lean ====
/-
  The reference program's arithmetic as pure functions of arrays.

  `agg`: rows of the pre-activation array are fetched by source node (a negative index counts from the end),
  scaled by the edge weight, and summed into the row of the destination node.
  `norm`: per column the mean `μ` and the centred second moment `v` (divided by `N − 0`, kept only when that
  divisor is positive), then `(o − μ)·(1/√(v + ε))` clipped below at zero.
  `result`: `norm` of `agg` of the matrix product.
-/
import proofs.«416483_j16758962389075_1_alg».proof.ReferenceIdeal

noncomputable section

namespace Cert.ReferenceIdeal.RDefs

open Idealize.ShloMosaic Cert.ReferenceIdeal Cert.ReferenceIdeal.Facts₀

variable {F : FTy → Type} [FloatOps F] [Cert.ReferenceIdeal.Facts]

/-- The source index with a negative value counted from the end, as a column of start indices. -/
def startIdx (a3 : IVec S3200000 32) : IVec S3200000x1 32 :=
  broadcastInDim S3200000x1 ![0] bcast_S3200000_S3200000x1_0
    (select (cmpi .slt a3 (broadcastInDim S3200000 ![] bcast_S_S3200000 (constantI S_ 32 0#32)))
      (addi a3 (broadcastInDim S3200000 ![] bcast_S_S3200000 (constantI S_ 32 100000#32))) a3)

/-- Weighted fetched rows summed by destination node into an array of zeros. -/
def agg (pre : FVec F S100000x64 .f32) (a2 : FVec F S3200000 .f32) (a3 a4 : IVec S3200000 32) : FVec F S100000x64 .f32 :=
  (fun x i u => Host.scatterAdd scatter_S100000x64_S3200000x1_S3200000x64_1_0_0_1 x i u)
    (broadcastInDim S100000x64 ![] bcast_S_S100000x64 (constant S_ .f32 0x00000000#32))
    (broadcastInDim S3200000x1 ![0] bcast_S3200000_S3200000x1_0 a4)
    (mulf (broadcastInDim S3200000x64 ![0, 1] bcast_S3200000x1_S3200000x64_0_1
        (broadcastInDim S3200000x1 ![0] bcast_S3200000_S3200000x1_0 a2))
      ((fun x i => Host.gather gather_S100000x64_S3200000x1_S3200000x64_1_0_n_n_0_1_164 x i) pre (startIdx a3)))

/-- Column means: the column sums over `N`. -/
def meanOf (o : FVec F S100000x64 .f32) : FVec F S64 .f32 :=
  Host.divf ((fun x v => Host.reduceAdd x v reducesTo_S100000x64_S64_d0 h_S_) o (constant S_ .f32 0x00000000#32))
    (broadcastInDim S64 ![] bcast_S_S64 (constant S_ .f32 0x47C35000#32))

/-- The divisor of the second moment: `N` minus the count of degrees of freedom removed, here the integer 0. -/
def dof : FVec F S_ .f32 := subf (constant S_ .f32 0x47C35000#32) (sitofp .f32 (constantI S_ 32 0#32))

/-- Column second moments about the mean (computed again inside, over a row of shape 1×64), kept where the
    divisor is positive. -/
def varOf (o : FVec F S100000x64 .f32) : FVec F S64 .f32 :=
  (fun p a b => select (broadcastInDim S64 ![] bcast_S_S64 p) a b)
    (cmpf .ogt (dof (F := F)) (constant S_ .f32 0x00000000#32))
    (Host.divf
      ((fun x v => Host.reduceAdd x v reducesTo_S100000x64_S64_d0 h_S_)
        (mulf
          (subf o (broadcastInDim S100000x64 ![0, 1] bcast_S1x64_S100000x64_0_1
            (Host.divf (broadcastInDim S1x64 ![1] bcast_S64_S1x64_1
                ((fun x v => Host.reduceAdd x v reducesTo_S100000x64_S64_d0 h_S_) o (constant S_ .f32 0x00000000#32)))
              (broadcastInDim S1x64 ![] bcast_S_S1x64 (constant S_ .f32 0x47C35000#32)))))
          (subf o (broadcastInDim S100000x64 ![0, 1] bcast_S1x64_S100000x64_0_1
            (Host.divf (broadcastInDim S1x64 ![1] bcast_S64_S1x64_1
                ((fun x v => Host.reduceAdd x v reducesTo_S100000x64_S64_d0 h_S_) o (constant S_ .f32 0x00000000#32)))
              (broadcastInDim S1x64 ![] bcast_S_S1x64 (constant S_ .f32 0x47C35000#32))))))
        (constant S_ .f32 0x00000000#32))
      (broadcastInDim S64 ![] bcast_S_S64 (dof (F := F))))
    (broadcastInDim S64 ![] bcast_S_S64 (id (constant S_ .f32 0x7FC00000#32)))

/-- Centre, scale, clip at zero. -/
def norm (o : FVec F S100000x64 .f32) : FVec F S100000x64 .f32 :=
  maximumf
    (mulf
      (subf o (broadcastInDim S100000x64 ![0, 1] bcast_S1x64_S100000x64_0_1
        (broadcastInDim S1x64 ![1] bcast_S64_S1x64_1 (meanOf o))))
      (broadcastInDim S100000x64 ![0, 1] bcast_S1x64_S100000x64_0_1
        (broadcastInDim S1x64 ![1] bcast_S64_S1x64_1
          (Host.rsqrt (addf (varOf o) (broadcastInDim S64 ![] bcast_S_S64 (constant S_ .f32 0x3A83126F#32)))))))
    (broadcastInDim S100000x64 ![] bcast_S_S100000x64 (constant S_ .f32 0x00000000#32))

/-- The reference's result as one function of its five arguments. -/
def result (a0 : FVec F S100000x128 .f32) (a1 : FVec F S128x64 .f32) (a2 : FVec F S3200000 .f32)
    (a3 a4 : IVec S3200000 32) : FVec F S100000x64 .f32 :=
  norm (agg ((fun l r => Host.dotGeneral dot_S100000x128_S128x64_S100000x64_1_0_0_1_n_n none l r) a0 a1) a2 a3 a4)

end Cert.ReferenceIdeal.RDefs

end
-- ==== Proof.Agg.lean ====
/-
  The aggregation step, compared between the two programs, and its values.

  Both programs fetch row `src(e)` of the pre-activation array for every edge `e` (a negative `src(e)` counted from
  the end), scale it by the edge's weight and add it into row `dst(e)` of an array of zeros. One of them first
  replaces a fetched row by the word that denotes no number wherever the counted index is outside 0 … 99999. When
  every `src(e)` lies in −100000 … 99999 the counted index is always inside, nothing is replaced, and the two
  aggregations are one function. And the aggregation of real numbers is real: a fetched entry is an entry of the
  array fetched from, and each result entry is zero plus a finite sum of products of two reals.
-/
import proofs.«416483_j16758962389075_1_alg».proof.Proof.KDefs
import proofs.«416483_j16758962389075_1_alg».proof.Proof.RDefs
import proofs.«416483_j16758962389075_1_alg».proof.Proof.Spec
import Idealize.ShloMosaic.Lib.ValueIdx
import Idealize.ShloMosaic.PureOps.Ideal

noncomputable section

namespace Cert.Agg

open Idealize.ShloMosaic Idealize.ShloMosaic.ValueIdx

/-! ## One index word -/

/-- A word `w` whose signed value lies in −100000 … 99999, with 100000 added when it is negative, has a signed
    value in 0 … 99999: for `w < 0` the sum `w + 100000` lies in 0 … 99999 and does not wrap at 32 bits; for
    `w ≥ 0` nothing is added. So both range tests answer 1 and so does their conjunction. -/
theorem word_inside (w : BitVec 32) (h : (-100000 : ℤ) ≤ w.toInt ∧ w.toInt < 100000) :
    IntOp.andi
      (IntOp.cmpi .sge (Scalar.select (IntOp.cmpi .slt w 0#32) (IntOp.addi w 100000#32) w) 0#32)
      (IntOp.cmpi .sle (Scalar.select (IntOp.cmpi .slt w 0#32) (IntOp.addi w 100000#32) w) 99999#32) = 1#1 := by
  obtain ⟨hlo, hhi⟩ := h
  have h0 : (0#32 : BitVec 32).toInt = 0 := by decide
  have h9 : (99999#32 : BitVec 32).toInt = 99999 := by decide
  have hN : (100000#32 : BitVec 32).toInt = 100000 := by decide
  by_cases hneg : w.toInt < 0
  · have hc : IntOp.cmpi .slt w 0#32 = 1#1 := by
      simp only [IntOp.cmpi, BitVec.slt, h0, decide_eq_true hneg]; rfl
    rw [hc, select_one]
    have hs : (IntOp.addi w 100000#32).toInt = w.toInt + 100000 := by
      simp only [IntOp.addi, BitVec.toInt_add, hN]
      unfold Int.bmod; dsimp only; omega
    simp only [IntOp.cmpi, IntOp.andi, BitVec.sle, h0, h9, hs]
    rw [decide_eq_true (show (0 : ℤ) ≤ w.toInt + 100000 by omega),
      decide_eq_true (show w.toInt + 100000 ≤ (99999 : ℤ) by omega)]
    rfl
  · have hc : IntOp.cmpi .slt w 0#32 = 0#1 := by
      simp only [IntOp.cmpi, BitVec.slt, h0, decide_eq_false hneg]; rfl
    rw [hc, select_zero]
    simp only [IntOp.cmpi, IntOp.andi, BitVec.sle, h0, h9]
    rw [decide_eq_true (show (0 : ℤ) ≤ w.toInt by omega),
      decide_eq_true (show w.toInt ≤ (99999 : ℤ) by omega)]
    rfl

/-! ## A conjunction of ones -/

/-- Reducing by `and`, from the initial bit 1, an array of bits that are all 1 gives 1 at every result index:
    the running conjunction starts at 1 and each step conjoins another 1, whichever indices reduce there. -/
theorem reduce_andi_all_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  unfold Host.reduce
  rw [hi]
  generalize ((List.finRange s.numel).filter fun n => h.drop (s.rowMajor.symm n) = j) = l
  induction l with
  | nil => rfl
  | cons a l ih =>
    rw [List.foldl_cons, hx, show IntOp.andi (1#1 : BitVec 1) 1#1 = 1#1 by decide]
    exact ih

/-- A fetched entry is an entry of the array fetched from, so fetching from an array of reals gives reals. -/
theorem gather_real {s si t : Shape} {w : Nat} (d : GatherDims s si t) (x : s.Idx → EReal) (idx : IVec si w)
    (hx : ∀ i, Cert.Spec.IsReal (x i)) (j : t.Idx) : Cert.Spec.IsReal (Host.gather d x idx j) := by
  unfold Host.gather
  exact hx _

/-- The bit pattern of all zeros is the number zero. -/
theorem ofBits_zero : Ideal.ofBits .f32 0x00000000#32 = 0 := by simp [Ideal.ofBits, Ideal.ieee]

/-- An accumulating scatter into an array of reals of updates that are reals has real entries: each entry is its
    starting value plus the finite sum of the updates that land on it. -/
theorem scatterAdd_real {s si su : Shape} {w : Nat} (d : ScatterDims s si su) (x : FVec Ideal s .f32) (idx : IVec si w)
    (upd : FVec Ideal su .f32) (hx : ∀ i, Cert.Spec.IsReal (x i)) (hu : ∀ j, Cert.Spec.IsReal (upd j)) (i : s.Idx) :
    Cert.Spec.IsReal (Host.scatterAdd d x idx upd i) := by
  show Cert.Spec.IsReal (Ideal.hostScatterAdd d x idx upd i)
  unfold Ideal.hostScatterAdd
  exact Cert.Spec.isReal_add (hx i) (Cert.Spec.isReal_sum _ _ fun j _ => hu j)

variable [Cert.KernelIdeal.Facts] [Cert.ReferenceIdeal.Facts]

/-! ## The range test never fails -/

/-- Every entry of the column of counted indices is some `src(e)` with 100000 added when negative; by the lemma
    on one word both range tests answer 1 there, so the conjunction along the column's one-element second axis,
    started from 1, is 1 at every edge. -/
theorem inRange_one (a3 : IVec Cert.KernelIdeal.S3200000 32)
    (h : ∀ e, (-100000 : ℤ) ≤ (a3 e).toInt ∧ (a3 e).toInt < 100000) :
    Cert.KernelIdeal.KDefs.inRange a3 = fun _ => 1#1 := by
  funext e
  unfold Cert.KernelIdeal.KDefs.inRange
  refine reduce_andi_all_one _ _ _ _ (fun i => ?_) rfl e
  obtain ⟨e', he'⟩ : ∃ e', Cert.KernelIdeal.KDefs.startIdx a3 i
      = Scalar.select (IntOp.cmpi .slt (a3 e') 0#32) (IntOp.addi (a3 e') 100000#32) (a3 e') := ⟨_, rfl⟩
  show IntOp.andi (IntOp.cmpi .sge (Cert.KernelIdeal.KDefs.startIdx a3 i) 0#32)
    (IntOp.cmpi .sle (Cert.KernelIdeal.KDefs.startIdx a3 i) 99999#32) = 1#1
  rw [he']
  exact word_inside _ (h e')

/-- With the range test always 1 the selection keeps every fetched row. -/
theorem taken_eq (pre : FVec Ideal Cert.KernelIdeal.S100000x64 .f32) (a3 : IVec Cert.KernelIdeal.S3200000 32)
    (h : ∀ e, (-100000 : ℤ) ≤ (a3 e).toInt ∧ (a3 e).toInt < 100000) :
    Cert.KernelIdeal.KDefs.taken (F := Ideal) pre a3
      = Host.gather Cert.KernelIdeal.gather_S100000x64_S3200000x1_S3200000x64_1_0_n_n_0_1_164 pre
          (Cert.KernelIdeal.KDefs.startIdx a3) := by
  funext i
  unfold Cert.KernelIdeal.KDefs.taken
  rw [select_apply, inRange_one a3 h]
  exact select_one _ _

/-- With every source index in −100000 … 99999 the two programs' aggregations agree. -/
theorem aggK_eq_aggR (pre : FVec Ideal Cert.KernelIdeal.S100000x64 .f32) (a2 : FVec Ideal Cert.KernelIdeal.S3200000 .f32)
    (a3 a4 : IVec Cert.KernelIdeal.S3200000 32)
    (h : ∀ e, (-100000 : ℤ) ≤ (a3 e).toInt ∧ (a3 e).toInt < 100000) :
    Cert.KernelIdeal.KDefs.agg (F := Ideal) pre a2 a3 a4 = Cert.ReferenceIdeal.RDefs.agg (F := Ideal) pre a2 a3 a4 := by
  unfold Cert.KernelIdeal.KDefs.agg Cert.ReferenceIdeal.RDefs.agg
  rw [taken_eq pre a3 h]
  rfl

/-- The aggregation of an array of reals with real weights has real entries. -/
theorem aggR_real (pre : FVec Ideal Cert.ReferenceIdeal.S100000x64 .f32) (a2 : FVec Ideal Cert.ReferenceIdeal.S3200000 .f32)
    (a3 a4 : IVec Cert.ReferenceIdeal.S3200000 32)
    (hpre : ∀ i, Cert.Spec.IsReal (pre i)) (ha2 : ∀ e, Cert.Spec.IsReal (a2 e)) :
    ∀ i, Cert.Spec.IsReal (Cert.ReferenceIdeal.RDefs.agg (F := Ideal) pre a2 a3 a4 i) := by
  intro i
  unfold Cert.ReferenceIdeal.RDefs.agg
  refine scatterAdd_real _ _ _ _ (fun i => ?_) (fun j => ?_) i
  · -- the array added into is the number zero everywhere
    show Cert.Spec.IsReal (Ideal.ofBits .f32 0x00000000#32)
    rw [ofBits_zero]
    exact Cert.Spec.isReal_zero
  · -- an update is an edge's weight times a fetched entry
    rw [mulf_apply]
    exact Cert.Spec.isReal_mul (ha2 _) (gather_real _ pre _ hpre j)

end Cert.Agg

end
-- ==== Proof.KVal0.lean ====
/-
  The first grid computation: twenty points, point `t` multiplying rows 5000·t … 5000·t + 4999 of the first
  argument by the whole second argument. The blocks tile the 100000 rows, so the array it leaves is the matrix
  product, entry by entry: `∑ₖ x(p,k)·w(k,q)` (the narrowing of both factors before the product is the identity on
  extended reals, and the product accumulates into zero).

  In order: which entry of each factor a term of the product reads (four coordinate facts); one block's product at
  an entry as a sum over the 128 contraction positions; where the blocks sit among the arrays and what an entry of
  a block is in its array; so what a point writes back is its block of the matrix product; the blocks cover every
  row; hence the whole array.
-/
import proofs.«416483_j16758962389075_1_alg».proof.Proof.Gen.KernelIdeal.Frame
import proofs.«416483_j16758962389075_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal0

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

/-- Row coordinate of the left factor's entry read for output entry `j` at contraction position `k`: the output's row. -/
theorem lhs_row (j : S5000x64.Idx) (k : dot_S5000x128_S128x64_S5000x64_1_0_0_1_n_n.contr.Idx) :
    (dot_S5000x128_S128x64_S5000x64_1_0_0_1_n_n.lhsIdx j k 0 : ℕ) = j 0 := by
  simp [DotDims.lhsIdx, dot_S5000x128_S128x64_S5000x64_1_0_0_1_n_n]; rfl
/-- Its column coordinate: the contraction position. -/
theorem lhs_col (j : S5000x64.Idx) (k : dot_S5000x128_S128x64_S5000x64_1_0_0_1_n_n.contr.Idx) :
    (dot_S5000x128_S128x64_S5000x64_1_0_0_1_n_n.lhsIdx j k 1 : ℕ) = k ⟨0, by decide⟩ := by
  simp [DotDims.lhsIdx, dot_S5000x128_S128x64_S5000x64_1_0_0_1_n_n]; rfl
/-- Row coordinate of the right factor's entry: the contraction position. -/
theorem rhs_row (j : S5000x64.Idx) (k : dot_S5000x128_S128x64_S5000x64_1_0_0_1_n_n.contr.Idx) :
    (dot_S5000x128_S128x64_S5000x64_1_0_0_1_n_n.rhsIdx j k 0 : ℕ) = k ⟨0, by decide⟩ := by
  simp [DotDims.rhsIdx, dot_S5000x128_S128x64_S5000x64_1_0_0_1_n_n]; rfl
/-- Its column coordinate: the output's column. -/
theorem rhs_col (j : S5000x64.Idx) (k : dot_S5000x128_S128x64_S5000x64_1_0_0_1_n_n.contr.Idx) :
    (dot_S5000x128_S128x64_S5000x64_1_0_0_1_n_n.rhsIdx j k 1 : ℕ) = j 1 := by
  simp [DotDims.rhsIdx, dot_S5000x128_S128x64_S5000x64_1_0_0_1_n_n]; rfl

/-- One block's product at row `p`, column `q`: the narrowing of the factors is the identity on extended reals and
    the product accumulates into zero, so the entry is `∑ₖ x₀(p,k)·x₁(k,q)` over the 128 contraction positions. -/
theorem pay_apply (x0 : S5000x128.Idx → EReal) (x1 : S128x64.Idx → EReal) (p : Fin 5000) (q : Fin 64) :
    k0_pay1 (F := Ideal) x0 x1 (ix2 p q) = ∑ k : Fin 128, x0 (ix2 p k) * x1 (ix2 k q) := by
  unfold k0_pay1
  refine (Ideal.matmul_constant_zero_apply dot_S5000x128_S128x64_S5000x64_1_0_0_1_n_n none _ _ (ix2 p q)).trans ?_
  rw [← Equiv.sum_comp (contrEquiv1 dot_S5000x128_S128x64_S5000x64_1_0_0_1_n_n 128 rfl rfl).symm]
  refine Finset.sum_congr rfl fun k _ => ?_
  rw [truncf_apply, truncf_apply]
  have hk := contrEquiv1_symm_val dot_S5000x128_S128x64_S5000x64_1_0_0_1_n_n 128 rfl rfl k
  have el : dot_S5000x128_S128x64_S5000x64_1_0_0_1_n_n.lhsIdx (ix2 p q)
      ((contrEquiv1 dot_S5000x128_S128x64_S5000x64_1_0_0_1_n_n 128 rfl rfl).symm k) = ix2 p k := by
    funext a; apply Fin.ext
    match a with
    | ⟨0, _⟩ => exact lhs_row _ _
    | ⟨1, _⟩ => exact (lhs_col _ _).trans hk
  have er : dot_S5000x128_S128x64_S5000x64_1_0_0_1_n_n.rhsIdx (ix2 p q)
      ((contrEquiv1 dot_S5000x128_S128x64_S5000x64_1_0_0_1_n_n 128 rfl rfl).symm k) = ix2 k q := by
    funext a; apply Fin.ext
    match a with
    | ⟨0, _⟩ => exact (rhs_row _ _).trans hk
    | ⟨1, _⟩ => exact rhs_col _ _
  rw [el, er]

-- the contents of every array when the grid computation is entered
variable (V : (c : Dev nD) → (b : Ref sig .tc) → Buf (Elt Ideal) ((c : Thread nD τ).loc b))

/-- The first argument, 100000 rows of 128 extended reals. -/
abbrev xarr (c : Dev nD) : S100000x128.Idx → EReal := V c main_arg0
/-- The second argument, 128 rows of 64 extended reals. -/
abbrev warr (c : Dev nD) : S128x64.Idx → EReal := V c main_arg1
/-- The block of the first argument that point `t` reads: 5000 rows of 128. -/
abbrev xblk (c : Dev nD) (t : Fin cfg0.N) : S5000x128.Idx → EReal := iblk0 V c 0 t
/-- The block of the second argument that point `t` reads: all of it. -/
abbrev wblk (c : Dev nD) (t : Fin cfg0.N) : S128x64.Idx → EReal := iblk0 V c 1 t

theorem offsets_zero : (![0, 0] : Fin 2 → Nat) = fun _ => 0 := funext fun a => by fin_cases a <;> rfl

/-- Where the blocks sit: at point `t` the first argument's block and the output's block are the `t`-th along the rows,
    the second argument's block is the only one; no block moves along the columns. -/
theorem block_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `(p, k)` of point `t`'s block of the first argument is entry `(5000·t + p, k)` of the argument. -/
theorem xblk_apply (c : Dev nD) (t : Fin cfg0.N) (p : Fin 5000) (k : Fin 128) (i : S100000x128.Idx)
    (h0 : (i 0).val = 5000 * t.val + p.val) (h1 : (i 1).val = k.val) :
    xblk V c t (ix2 p k) = xarr V c i := by
  obtain ⟨e0, e1, -, -, -, -⟩ := block_positions t
  show iblk0 V c 0 t (ix2 p k) = V c main_arg0 i
  unfold iblk0
  rw [View.read_apply]
  show V c main_arg0 _ = V c main_arg0 i
  congr 1
  funext a
  apply Fin.ext
  match a with
  | ⟨0, _⟩ => show win0_0.index t (0 : Fin 2) * 5000 + 1 * p.val = (i 0).val; rw [e0, h0]; omega
  | ⟨1, _⟩ => show win0_0.index t (1 : Fin 2) * 128 + 1 * k.val = (i 1).val; rw [e1, h1]; omega

/-- Entry `(k, q)` of the block of the second argument is entry `(k, q)` of the argument. -/
theorem wblk_apply (c : Dev nD) (t : Fin cfg0.N) (k : Fin 128) (q : Fin 64) (i : S128x64.Idx)
    (h0 : (i 0).val = k.val) (h1 : (i 1).val = q.val) :
    wblk V c t (ix2 k q) = warr V c i := by
  obtain ⟨-, -, e0, e1, -, -⟩ := block_positions t
  show iblk0 V c 1 t (ix2 k q) = V c main_arg1 i
  unfold iblk0
  rw [View.read_apply]
  show V c main_arg1 _ = V c main_arg1 i
  congr 1
  funext a
  apply Fin.ext
  match a with
  | ⟨0, _⟩ => show win0_1.index t (0 : Fin 2) * 128 + 1 * k.val = (i 0).val; rw [e0, h0]; omega
  | ⟨1, _⟩ => show win0_1.index t (1 : Fin 2) * 64 + 1 * q.val = (i 1).val; rw [e1, h1]; omega

/-- What point `t` computes at `(p, q)` of its block is the matrix product's entry at row `5000·t + p`, column `q`:
    the block of the first argument holds exactly the rows the entry needs, the second argument is there whole. -/
theorem point_entry (c : Dev nD) (t : Fin cfg0.N) (p : Fin 5000) (q : Fin 64) (i : S100000x64.Idx)
    (h0 : (i 0).val = 5000 * t.val + p.val) (h1 : (i 1).val = q.val) :
    k0_pay1 (F := Ideal) (xblk V c t) (wblk V c t) (ix2 p q) = Cert.Spec.matmul (xarr V c) (warr V c) i := by
  refine (pay_apply (xblk V c t) (wblk V c t) p q).trans ?_
  show _ = ∑ k : Fin 128, xarr V c (ix2 (i 0) k) * warr V c (ix2 k (i 1))
  refine Finset.sum_congr rfl fun k _ => ?_
  rw [xblk_apply V c t p k (ix2 (i 0) k) h0 rfl, wblk_apply V c t k q (ix2 k (i 1)) rfl h1]

/-- What point `t` writes back is its block of the matrix product. -/
theorem flushed_eq (c : Dev nD) (t : Fin cfg0.N) :
    (dat0 (F := Ideal) V c).flushed 2 t
      = ((cfg0.win 2).blk t).view.read (Elt Ideal) (Cert.Spec.matmul (V c main_arg0) (V c main_arg1)) := by
  show (cfg0.win 2).cut (grid0.coords t) ((dat0 (F := Ideal) V c).after 2 t) = _
  rw [after0_2]
  unfold out0_2
  rw [View.canon_unit_zero offsets_zero]
  simp only [View.ld_unit_zero (S := S5000x128) offsets_zero, View.ld_unit_zero (S := S128x64) offsets_zero]
  obtain ⟨-, -, -, -, e0, e1⟩ := block_positions t
  funext j
  obtain ⟨p, q, rfl⟩ : ∃ (p : Fin 5000) (q : Fin 64), j = ix2 p q := ⟨j 0, j 1, eq_ix2 j⟩
  show k0_pay1 (F := Ideal) (xblk V c t) (wblk V c t) (ix2 p q)
    = Cert.Spec.matmul (xarr V c) (warr V c) (((cfg0.win 2).blk t).view.emb (ix2 p q))
  refine point_entry V c t p q _ ?_ ?_
  · show win0_2.index t (0 : Fin 2) * 5000 + 1 * p.val = _; rw [e0]; omega
  · show win0_2.index t (1 : Fin 2) * 64 + 1 * q.val = _; rw [e1]; omega

/-- An entry of the output lies in point `t`'s block when each coordinate lies in the block's range on its axis. -/
theorem mem_blk (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v0).slice (win0_2.rect t)).set ↔ _
  rw [View.set_slice_whole, Rect.mem_set_unit]
  exact Iff.rfl

/-- The twenty blocks of 5000 rows tile the 100000 rows: row `r` is in the block of point `r / 5000`. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, e0, e1⟩ := block_positions t
  have ht : t.val = (i 0).val / 5000 := rfl
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    rw [e0, ht]; omega
  | ⟨1, _⟩ =>
    show win0_2.index t (1 : Fin 2) * 64 ≤ (i 1).val ∧ (i 1).val < win0_2.index t (1 : Fin 2) * 64 + 64
    rw [e1]; omega

/-- The array the first grid computation leaves is the matrix product of the two arrays it reads. -/
theorem arr (c : Dev nD) :
    (dat0 (F := Ideal) V c).arrAt 2 cfg0.N = Cert.Spec.matmul (V c main_arg0) (V c main_arg1) :=
  (dat0 (F := Ideal) V c).arrAt_eq_of_cover 2 (Cert.Spec.matmul (V c main_arg0) (V c main_arg1))
    (fun t _ => flushed_eq V c t) covered

end Cert.KernelIdeal.KVal0

end
-- ==== Proof.KVal1.lean ====
/-
  The second grid computation: twenty points over row blocks of 5000; the two one-row outputs are set to zero
  at the first point and every point adds its block's column sums (to the first) and column sums of squares (to
  the second). Neither is written back before the last point, so what the run leaves is, per column `q`, the sum
  over all 100000 rows of `o(p,q)`, and of `o(p,q)²` — twenty partial sums regrouped into one.
-/
import proofs.«416483_j16758962389075_1_alg».proof.Proof.Gen.KernelIdeal.Frame
import proofs.«416483_j16758962389075_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal1

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the TensorCore's buffer contents when the grid computation is entered
variable (V : (c : Dev nD) → (b : Ref sig .tc) → Buf (Elt Ideal) ((c : Thread nD τ).loc b))

/-! ## What each control case leaves in the two one-row buffers

At the first point both buffers are set to zero and then updated; at every later point they are only updated.
Either way the last store covers the whole row, so the buffer ends at that store's value: the update of what the
buffer held (zero at the first point, the carried row later) by the point's block. -/

/-- The offsets of every access of the body: both zero. -/
theorem hz : (![0, 0] : Fin 2 → Nat) = fun _ => 0 := funext fun a => by fin_cases a <;> rfl

section Pieces
variable {F : FTy → Type} [FloatOps F]

/-- A later point, first output: the carried row `p1` plus the block's column sums. -/
theorem outB1 (c : Dev nD) (i : grid1.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : ¬cond1_0 i) (x0 : Vec F S5000x64 .f32) (p1 p2 : Vec F S1x64 .f32) :
    out1_B_1 c i a1 h1 a2 h2 a3 h3 hc x0 p1 p2 = k1_pay4 x0 p1 := by
  unfold out1_B_1
  rw [View.read_writes_eq_canon _ _ _ (cover1_B_1 c i a1 h1 a2 h2 a3 h3 hc x0 p1 p2)]
  unfold kernelRun1_B
  dsimp only
  sl_unfold_words
  rw [View.canon_unit_zero hz]
  simp only [View.readAt_eq_ld, h1.read_unread, h2.read_unread, View.ld_unit_zero (S := S5000x64) hz,
    View.ld_unit_zero (S := S1x64) hz]

/-- A later point, second output: the carried row `p2` plus the block's column sums of squares. -/
theorem outB2 (c : Dev nD) (i : grid1.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : ¬cond1_0 i) (x0 : Vec F S5000x64 .f32) (p1 p2 : Vec F S1x64 .f32) :
    out1_B_2 c i a1 h1 a2 h2 a3 h3 hc x0 p1 p2 = k1_pay5 x0 p2 := by
  unfold out1_B_2
  rw [View.read_writes_eq_canon _ _ _ (cover1_B_2 c i a1 h1 a2 h2 a3 h3 hc x0 p1 p2)]
  unfold kernelRun1_B
  dsimp only
  sl_unfold_words
  rw [View.canon_unit_zero hz]
  simp only [View.readAt_eq_ld, h1.read_unread, h3.read_unread, View.ld_unit_zero (S := S5000x64) hz,
    View.ld_unit_zero (S := S1x64) hz]

/-- The first point, first output: the zero row, read back, plus the block's column sums. -/
theorem outA1 (c : Dev nD) (i : grid1.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : cond1_0 i) (x0 : Vec F S5000x64 .f32) :
    out1_A_1 c i a1 h1 a2 h2 a3 h3 hc x0 = k1_pay4 x0 (k1_pay1 (F := F)) := by
  unfold out1_A_1
  rw [View.read_writes_eq_canon _ _ _ (cover1_A_1 c i a1 h1 a2 h2 a3 h3 hc x0)]
  unfold kernelRun1_A
  dsimp only
  sl_unfold_words
  rw [View.canon_cons_unit_zero (S := S1x64) hz]
  simp only [View.readAt_eq_ld, h1.read_unread, View.ld_unit_zero (S := S5000x64) hz,
    View.readCov_unit_zero (S := S1x64) _ hz]

/-- The first point, second output: the zero row, read back, plus the block's column sums of squares. -/
theorem outA2 (c : Dev nD) (i : grid1.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : cond1_0 i) (x0 : Vec F S5000x64 .f32) :
    out1_A_2 c i a1 h1 a2 h2 a3 h3 hc x0 = k1_pay5 x0 (k1_pay2 (F := F)) := by
  unfold out1_A_2
  rw [View.read_writes_eq_canon _ _ _ (cover1_A_2 c i a1 h1 a2 h2 a3 h3 hc x0)]
  unfold kernelRun1_A
  dsimp only
  sl_unfold_words
  rw [View.canon_cons_unit_zero (S := S1x64) hz]
  simp only [View.readAt_eq_ld, h1.read_unread, View.ld_unit_zero (S := S5000x64) hz,
    View.readCov_unit_zero (S := S1x64) _ hz]

end Pieces

/-! ## The update, entry by entry, over the extended reals

Column `q` of the new row is column `q` of the old row plus the sum, over the block's 5000 rows `r`, of the block's
entry `(r, q)` — or of its square. The reshapes around the sum move no entry; the reset row is zero. -/

section Payload

/-- Putting the row coordinate `r` back in front of the column `q` gives the entry `(r, q)`. -/
theorem lift_eq (q : Fin 64) (r : Fin 5000) :
    (reduces_S5000x64_S64.lift (ix1 q) r : S5000x64.Idx) = ix2 r q :=
  funext fun a => by match a with | ⟨0, _⟩ => rfl | ⟨1, _⟩ => rfl

/-- The sum along the rows, at column `q`: `∑ᵣ y(r, q)`. -/
theorem colred (y : S5000x64.Idx → EReal) (q : Fin 64) :
    multiReduction (F := Ideal) .add [0] S64 y 0x00000000#32 reduces_S5000x64_S64 (.inl rfl) rfl (ix1 q)
      = ∑ r : Fin 5000, y (ix2 r q) := by
  refine (Ideal.multiReduction_add_single (φ := .f32) y 0x00000000#32 reduces_S5000x64_S64 (.inl rfl) rfl (ix1 q)).trans ?_
  exact Finset.sum_congr rfl fun r _ => congrArg y (lift_eq q r)

/-- The first output's update at column `q`: `p(0, q) + ∑ᵣ x(r, q)`. -/
theorem pay4_apply (x : S5000x64.Idx → EReal) (p : S1x64.Idx → EReal) (u : Fin 1) (q : Fin 64) :
    k1_pay4 (F := Ideal) x p (ix2 u q) = p (ix2 u q) + ∑ r : Fin 5000, x (ix2 r q) := by
  unfold k1_pay4 k1_pay3
  rw [shapeCast_self, shapeCast_self]
  refine (addf_apply (s := S1x64) (φ := .f32) p _ (ix2 u q)).trans ?_
  refine congrArg (p (ix2 u q) + ·) ?_
  refine (shapeCast_a_1a_apply _ shapeCasts_S64_S1x64 u q).trans ?_
  exact colred x q

/-- The second output's update at column `q`: `p(0, q) + ∑ᵣ x(r, q)²`. -/
theorem pay5_apply (x : S5000x64.Idx → EReal) (p : S1x64.Idx → EReal) (u : Fin 1) (q : Fin 64) :
    k1_pay5 (F := Ideal) x p (ix2 u q) = p (ix2 u q) + ∑ r : Fin 5000, x (ix2 r q) * x (ix2 r q) := by
  unfold k1_pay5 k1_pay3
  rw [shapeCast_self, shapeCast_self]
  refine (addf_apply (s := S1x64) (φ := .f32) p _ (ix2 u q)).trans ?_
  refine congrArg (p (ix2 u q) + ·) ?_
  refine (shapeCast_a_1a_apply _ shapeCasts_S64_S1x64 u q).trans ?_
  refine (colred (mulf (F := Ideal) (φ := .f32) (s := S5000x64) x x) q).trans ?_
  rfl

/-- The row the first output is reset to is zero everywhere, -/
theorem pay1_apply (j : S1x64.Idx) : k1_pay1 (F := Ideal) j = 0 := by
  unfold k1_pay1
  exact Ideal.ofBits_zero_f32

/-- and so is the second's. -/
theorem pay2_apply (j : S1x64.Idx) : k1_pay2 (F := Ideal) j = 0 := by
  unfold k1_pay2
  exact Ideal.ofBits_zero_f32

end Payload

/-! ## The block a point reads

Point `t` reads rows `5000·t … 5000·t + 4999` of the array, all 64 columns. -/

/-- The array the computation reads, as a function of (row, column). -/
abbrev xarr (c : Dev nD) : S100000x64.Idx → EReal := V c main_v7
/-- The 5000 rows point `t` reads. -/
abbrev xblk (c : Dev nD) (t : Fin cfg1.N) : S5000x64.Idx → EReal := iblk1 (F := Ideal) V c 0 t

/-- The read block's index at point `t` is `(t, 0)`. -/
theorem idx1_0 : ∀ t : Fin cfg1.N, win1_0.index t 0 = t.val ∧ win1_0.index t 1 = 0 :=
  (by decide +kernel : ∀ t : Fin grid1.N, win1_0.index t 0 = t.val ∧ win1_0.index t 1 = 0)

/-- Entry `(r, q)` of point `t`'s block is entry `(5000·t + r, q)` of the array. -/
theorem xblk_apply (c : Dev nD) (t : Fin cfg1.N) (r : Fin 5000) (q : Fin 64) (k : Fin 100000)
    (hk : k.val = 5000 * t.val + r.val) : xblk V c t (ix2 r q) = xarr V c (ix2 k q) := by
  unfold xblk iblk1
  rw [View.read_apply]
  show V c main_v7 _ = V c main_v7 _
  refine congrArg (V c main_v7) (funext fun a => Fin.ext ?_)
  match a with
  | ⟨0, _⟩ => show win1_0.index t 0 * 5000 + 1 * r.val = k.val; rw [(idx1_0 t).1, hk]; omega
  | ⟨1, _⟩ => show win1_0.index t 1 * 64 + 1 * q.val = q.val; rw [(idx1_0 t).2]; omega

/-- Column `q` of an array as a sequence indexed by the row number: the entry while the row exists, zero past the
    last row (never read below: every row number met is under 100000). -/
def colAt (f : S100000x64.Idx → EReal) (q : Fin 64) (k : ℕ) : EReal :=
  if h : k < 100000 then f (ix2 ⟨k, h⟩ q) else 0

theorem colAt_lt (f : S100000x64.Idx → EReal) (q : Fin 64) (k : Fin 100000) : colAt f q k.val = f (ix2 k q) :=
  dif_pos k.isLt

/-- A sum over the rows of point `t`'s block, of any function `g` of the entry in column `q`, is the sum of `g` along
    that column of the array over the 5000 row numbers from `5000·t`. -/
theorem blk_sum (g : EReal → EReal) (c : Dev nD) (t : Fin cfg1.N) (q : Fin 64) :
    ∑ r : Fin 5000, g (xblk V c t (ix2 r q))
      = ∑ r ∈ Finset.range 5000, g (colAt (xarr V c) q (5000 * t.val + r)) := by
  have hN : cfg1.N = 20 := N_1
  have ht : t.val < 20 := hN ▸ t.isLt
  rw [Finset.sum_range]
  refine Finset.sum_congr rfl fun r _ => congrArg g ?_
  have hk : 5000 * t.val + r.val < 100000 := by have := r.isLt; omega
  rw [xblk_apply V c t r q ⟨5000 * t.val + r.val, hk⟩ rfl]
  exact (colAt_lt (xarr V c) q ⟨5000 * t.val + r.val, hk⟩).symm

/-! ## The running sums

After point `n` the first buffer holds, in column `q`, the sum of the array's column `q` over the first
`5000·(n + 1)` rows, and the second the sum of the squares: by induction on the point. At point 0 the buffer is zero
plus the first block's sum; at point `n + 1` it is what point `n` left plus the next block's sum, and a sum over
`5000·(n + 1) + 5000` consecutive row numbers splits into the first `5000·(n + 1)` and the last 5000. -/

theorem acc1 (c : Dev nD) (u : Fin 1) (q : Fin 64) : ∀ (n : ℕ) (hn : n < cfg1.N),
    (outsAt1 (F := Ideal) V c n hn).1 (ix2 u q) = ∑ k ∈ Finset.range (5000 * (n + 1)), colAt (xarr V c) q k
  | 0, hn => by
    rw [outsAt1_A V c ⟨0, hn⟩ rfl]
    dsimp only
    refine (congrFun (outA1 (F := Ideal) c (grid1.coords ⟨0, hn⟩) (ms1_0 ⟨0, hn⟩) (hs1_0 ⟨0, hn⟩) (ms1_1 ⟨0, hn⟩)
      (hs1_1 ⟨0, hn⟩) (ms1_2 ⟨0, hn⟩) (hs1_2 ⟨0, hn⟩) ((hcond1_0 ⟨0, hn⟩).mpr rfl) (xblk V c ⟨0, hn⟩)) (ix2 u q)).trans ?_
    refine (pay4_apply (xblk V c ⟨0, hn⟩) (k1_pay1 (F := Ideal)) u q).trans ?_
    have e := blk_sum V (fun v => v) c ⟨0, hn⟩ q
    rw [pay1_apply, zero_add, e]
    simp only [Nat.mul_zero, Nat.zero_add, Nat.mul_one]
  | n + 1, hn => by
    have hN : cfg1.N = 20 := N_1
    have hB : ¬(⟨n + 1, hn⟩ : Fin cfg1.N).val % 20 = 0 := by dsimp only; omega
    rw [outsAt1_B V c ⟨n + 1, hn⟩ hB]
    dsimp only
    refine (congrFun (outB1 (F := Ideal) c (grid1.coords ⟨n + 1, hn⟩) (ms1_0 ⟨n + 1, hn⟩) (hs1_0 ⟨n + 1, hn⟩)
      (ms1_1 ⟨n + 1, hn⟩) (hs1_1 ⟨n + 1, hn⟩) (ms1_2 ⟨n + 1, hn⟩) (hs1_2 ⟨n + 1, hn⟩)
      (fun h => hB ((hcond1_0 ⟨n + 1, hn⟩).mp h)) (xblk V c ⟨n + 1, hn⟩)
      (outsAt1 (F := Ideal) V c n (Nat.lt_of_succ_lt hn)).1 (outsAt1 (F := Ideal) V c n (Nat.lt_of_succ_lt hn)).2) (ix2 u q)).trans ?_
    refine (pay4_apply (xblk V c ⟨n + 1, hn⟩) (outsAt1 (F := Ideal) V c n (Nat.lt_of_succ_lt hn)).1 u q).trans ?_
    have e := blk_sum V (fun v => v) c ⟨n + 1, hn⟩ q
    rw [acc1 c u q n (Nat.lt_of_succ_lt hn), e, show 5000 * (n + 1 + 1) = 5000 * (n + 1) + 5000 from by ring,
      Finset.sum_range_add]

theorem acc2 (c : Dev nD) (u : Fin 1) (q : Fin 64) : ∀ (n : ℕ) (hn : n < cfg1.N),
    (outsAt1 (F := Ideal) V c n hn).2 (ix2 u q)
      = ∑ k ∈ Finset.range (5000 * (n + 1)), colAt (xarr V c) q k * colAt (xarr V c) q k
  | 0, hn => by
    rw [outsAt1_A V c ⟨0, hn⟩ rfl]
    dsimp only
    refine (congrFun (outA2 (F := Ideal) c (grid1.coords ⟨0, hn⟩) (ms1_0 ⟨0, hn⟩) (hs1_0 ⟨0, hn⟩) (ms1_1 ⟨0, hn⟩)
      (hs1_1 ⟨0, hn⟩) (ms1_2 ⟨0, hn⟩) (hs1_2 ⟨0, hn⟩) ((hcond1_0 ⟨0, hn⟩).mpr rfl) (xblk V c ⟨0, hn⟩)) (ix2 u q)).trans ?_
    refine (pay5_apply (xblk V c ⟨0, hn⟩) (k1_pay2 (F := Ideal)) u q).trans ?_
    have e := blk_sum V (fun v => v * v) c ⟨0, hn⟩ q
    rw [pay2_apply, zero_add, e]
    simp only [Nat.mul_zero, Nat.zero_add, Nat.mul_one]
  | n + 1, hn => by
    have hN : cfg1.N = 20 := N_1
    have hB : ¬(⟨n + 1, hn⟩ : Fin cfg1.N).val % 20 = 0 := by dsimp only; omega
    rw [outsAt1_B V c ⟨n + 1, hn⟩ hB]
    dsimp only
    refine (congrFun (outB2 (F := Ideal) c (grid1.coords ⟨n + 1, hn⟩) (ms1_0 ⟨n + 1, hn⟩) (hs1_0 ⟨n + 1, hn⟩)
      (ms1_1 ⟨n + 1, hn⟩) (hs1_1 ⟨n + 1, hn⟩) (ms1_2 ⟨n + 1, hn⟩) (hs1_2 ⟨n + 1, hn⟩)
      (fun h => hB ((hcond1_0 ⟨n + 1, hn⟩).mp h)) (xblk V c ⟨n + 1, hn⟩)
      (outsAt1 (F := Ideal) V c n (Nat.lt_of_succ_lt hn)).1 (outsAt1 (F := Ideal) V c n (Nat.lt_of_succ_lt hn)).2) (ix2 u q)).trans ?_
    refine (pay5_apply (xblk V c ⟨n + 1, hn⟩) (outsAt1 (F := Ideal) V c n (Nat.lt_of_succ_lt hn)).2 u q).trans ?_
    have e := blk_sum V (fun v => v * v) c ⟨n + 1, hn⟩ q
    rw [acc2 c u q n (Nat.lt_of_succ_lt hn), e, show 5000 * (n + 1 + 1) = 5000 * (n + 1) + 5000 from by ring,
      Finset.sum_range_add]

/-! ## After the last point

Point 19 is the twentieth: `5000·20 = 100000` rows, the whole column. -/

theorem h19 : 19 < cfg1.N := by rw [show cfg1.N = 20 from N_1]; decide

/-- After the last point the first buffer holds every column's sum over all the rows, -/
theorem last1 (c : Dev nD) :
    (outsAt1 (F := Ideal) V c 19 h19).1 = fun j : S1x64.Idx => Cert.Spec.colSum (xarr V c) (j 1) := by
  funext j
  obtain ⟨u, q, rfl⟩ : ∃ (u : Fin 1) (q : Fin 64), j = ix2 u q := ⟨j 0, j 1, eq_ix2 j⟩
  rw [acc1 V c u q 19 h19, show 5000 * (19 + 1) = 100000 from by norm_num, Finset.sum_range]
  exact Finset.sum_congr rfl fun p _ => colAt_lt (xarr V c) q p

/-- and the second every column's sum of squares. -/
theorem last2 (c : Dev nD) :
    (outsAt1 (F := Ideal) V c 19 h19).2 = fun j : S1x64.Idx => Cert.Spec.colSumSq (xarr V c) (j 1) := by
  funext j
  obtain ⟨u, q, rfl⟩ : ∃ (u : Fin 1) (q : Fin 64), j = ix2 u q := ⟨j 0, j 1, eq_ix2 j⟩
  rw [acc2 V c u q 19 h19, show 5000 * (19 + 1) = 100000 from by norm_num, Finset.sum_range]
  exact Finset.sum_congr rfl fun p _ => by rw [colAt_lt (xarr V c) q p]

/-! ## The write-back

Each output is one block, the whole 1×64 array, at block index `(0, 0)` at every point, and only the last point
writes it back: what it writes is the whole row the buffer then holds, and that one block covers the array. -/

theorem idx1_1 : ∀ t : Fin cfg1.N, win1_1.index t 0 = 0 ∧ win1_1.index t 1 = 0 :=
  (by decide +kernel : ∀ t : Fin grid1.N, win1_1.index t 0 = 0 ∧ win1_1.index t 1 = 0)
theorem idx1_2 : ∀ t : Fin cfg1.N, win1_2.index t 0 = 0 ∧ win1_2.index t 1 = 0 :=
  (by decide +kernel : ∀ t : Fin grid1.N, win1_2.index t 0 = 0 ∧ win1_2.index t 1 = 0)
/-- The block written back is never cut short: one row of 64 columns. -/
theorem xs1_1 : ∀ t : Fin cfg1.N, win1_1.xsize (grid1.coords t) 0 = 1 ∧ win1_1.xsize (grid1.coords t) 1 = 64 :=
  (by decide +kernel : ∀ t : Fin grid1.N, win1_1.xsize (grid1.coords t) 0 = 1 ∧ win1_1.xsize (grid1.coords t) 1 = 64)
theorem xs1_2 : ∀ t : Fin cfg1.N, win1_2.xsize (grid1.coords t) 0 = 1 ∧ win1_2.xsize (grid1.coords t) 1 = 64 :=
  (by decide +kernel : ∀ t : Fin grid1.N, win1_2.xsize (grid1.coords t) 0 = 1 ∧ win1_2.xsize (grid1.coords t) 1 = 64)

/-- The one write-back of the first output writes the row of column sums. -/
theorem flushed1 (c : Dev nD) (t : Fin cfg1.N) (hf : (cfg1.win 1).flush t = true) :
    (dat1 (F := Ideal) V c).flushed 1 t
      = ((cfg1.win 1).blk t).view.read (Elt Ideal) (fun j : S1x64.Idx => Cert.Spec.colSum (xarr V c) (j 1)) := by
  have hN : cfg1.N = 20 := N_1
  have ht : t.val = 19 := by have := (flush1_1 t).mp hf; have := t.isLt; omega
  obtain rfl : t = ⟨19, h19⟩ := Fin.ext ht
  show (cfg1.win 1).cut (grid1.coords ⟨19, h19⟩) ((dat1 (F := Ideal) V c).after 1 ⟨19, h19⟩) = _
  rw [after1_1, last1]
  have hz' : (fun a => win1_1.index ⟨19, h19⟩ a * main_v8_0.ty.shape.size a) = fun _ => 0 :=
    funext fun a => by
      match a with
      | ⟨0, _⟩ => show win1_1.index ⟨19, h19⟩ 0 * 1 = 0; rw [(idx1_1 ⟨19, h19⟩).1]
      | ⟨1, _⟩ => show win1_1.index ⟨19, h19⟩ 1 * 64 = 0; rw [(idx1_1 ⟨19, h19⟩).2]
  exact (Memref.read_access_unit_zero (Elt Ideal) main_v8_0 hz' (fun a => by rw [congrFun hz' a]; simp)
    (fun j : S1x64.Idx => Cert.Spec.colSum (xarr V c) (j 1))).symm

/-- The one write-back of the second output writes the row of column sums of squares. -/
theorem flushed2 (c : Dev nD) (t : Fin cfg1.N) (hf : (cfg1.win 2).flush t = true) :
    (dat1 (F := Ideal) V c).flushed 2 t
      = ((cfg1.win 2).blk t).view.read (Elt Ideal) (fun j : S1x64.Idx => Cert.Spec.colSumSq (xarr V c) (j 1)) := by
  have hN : cfg1.N = 20 := N_1
  have ht : t.val = 19 := by have := (flush1_2 t).mp hf; have := t.isLt; omega
  obtain rfl : t = ⟨19, h19⟩ := Fin.ext ht
  show (cfg1.win 2).cut (grid1.coords ⟨19, h19⟩) ((dat1 (F := Ideal) V c).after 2 ⟨19, h19⟩) = _
  rw [after1_2, last2]
  have hz' : (fun a => win1_2.index ⟨19, h19⟩ a * main_v8_1.ty.shape.size a) = fun _ => 0 :=
    funext fun a => by
      match a with
      | ⟨0, _⟩ => show win1_2.index ⟨19, h19⟩ 0 * 1 = 0; rw [(idx1_2 ⟨19, h19⟩).1]
      | ⟨1, _⟩ => show win1_2.index ⟨19, h19⟩ 1 * 64 = 0; rw [(idx1_2 ⟨19, h19⟩).2]
  exact (Memref.read_access_unit_zero (Elt Ideal) main_v8_1 hz' (fun a => by rw [congrFun hz' a]; simp)
    (fun j : S1x64.Idx => Cert.Spec.colSumSq (xarr V c) (j 1))).symm

/-- The first output ends at the column sums of the array it reads. -/
theorem arr_sum (c : Dev nD) :
    (dat1 (F := Ideal) V c).arrAt 1 cfg1.N = fun j => Cert.Spec.colSum (V c main_v7) (j 1) := by
  exact (dat1 (F := Ideal) V c).arrAt_eq_of_cover 1 (fun j : S1x64.Idx => Cert.Spec.colSum (xarr V c) (j 1))
    (flushed1 V c) fun i =>
    ⟨⟨19, h19⟩, (flush1_1 ⟨19, h19⟩).mpr rfl, by
      show i ∈ ((View.whole main_v8_0).slice (win1_1.rect ⟨19, h19⟩)).set
      rw [View.set_slice_whole, Rect.mem_set_unit]
      intro a
      have h0 : (i 0 : Nat) < 1 := (i 0).isLt
      have h1 : (i 1 : Nat) < 64 := (i 1).isLt
      match a with
      | ⟨0, _⟩ =>
        show win1_1.index ⟨19, h19⟩ 0 * 1 ≤ (i 0 : Nat)
          ∧ (i 0 : Nat) < win1_1.index ⟨19, h19⟩ 0 * 1 + win1_1.xsize (grid1.coords ⟨19, h19⟩) 0
        rw [(idx1_1 ⟨19, h19⟩).1, (xs1_1 ⟨19, h19⟩).1]; omega
      | ⟨1, _⟩ =>
        show win1_1.index ⟨19, h19⟩ 1 * 64 ≤ (i 1 : Nat)
          ∧ (i 1 : Nat) < win1_1.index ⟨19, h19⟩ 1 * 64 + win1_1.xsize (grid1.coords ⟨19, h19⟩) 1
        rw [(idx1_1 ⟨19, h19⟩).2, (xs1_1 ⟨19, h19⟩).2]; omega⟩

/-- The second output ends at the column sums of squares. -/
theorem arr_sumsq (c : Dev nD) :
    (dat1 (F := Ideal) V c).arrAt 2 cfg1.N = fun j => Cert.Spec.colSumSq (V c main_v7) (j 1) := by
  exact (dat1 (F := Ideal) V c).arrAt_eq_of_cover 2 (fun j : S1x64.Idx => Cert.Spec.colSumSq (xarr V c) (j 1))
    (flushed2 V c) fun i =>
    ⟨⟨19, h19⟩, (flush1_2 ⟨19, h19⟩).mpr rfl, by
      show i ∈ ((View.whole main_v8_1).slice (win1_2.rect ⟨19, h19⟩)).set
      rw [View.set_slice_whole, Rect.mem_set_unit]
      intro a
      have h0 : (i 0 : Nat) < 1 := (i 0).isLt
      have h1 : (i 1 : Nat) < 64 := (i 1).isLt
      match a with
      | ⟨0, _⟩ =>
        show win1_2.index ⟨19, h19⟩ 0 * 1 ≤ (i 0 : Nat)
          ∧ (i 0 : Nat) < win1_2.index ⟨19, h19⟩ 0 * 1 + win1_2.xsize (grid1.coords ⟨19, h19⟩) 0
        rw [(idx1_2 ⟨19, h19⟩).1, (xs1_2 ⟨19, h19⟩).1]; omega
      | ⟨1, _⟩ =>
        show win1_2.index ⟨19, h19⟩ 1 * 64 ≤ (i 1 : Nat)
          ∧ (i 1 : Nat) < win1_2.index ⟨19, h19⟩ 1 * 64 + win1_2.xsize (grid1.coords ⟨19, h19⟩) 1
        rw [(idx1_2 ⟨19, h19⟩).2, (xs1_2 ⟨19, h19⟩).2]; omega⟩

end Cert.KernelIdeal.KVal1

end
-- ==== Proof.KVal2.lean ====
/-
  The third grid computation: twenty points, point `t` taking rows 5000·t … 5000·t + 4999 of the array and
  the two one-row arrays whole, and writing `max (o·scale + shift) 0` with the rows laid along every row of the
  block. The blocks tile the array, so the array it leaves is that expression entry by entry.
-/
import proofs.«416483_j16758962389075_1_alg».proof.Proof.Gen.KernelIdeal.Frame
import proofs.«416483_j16758962389075_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal2

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the TensorCore's buffer contents when the grid computation is entered
variable (V : (c : Dev nD) → (b : Ref sig .tc) → Buf (Elt Ideal) ((c : Thread nD τ).loc b))

/-- The array that is normalised, as the grid computation finds it. -/
abbrev oarr (c : Dev nD) : S100000x64.Idx → EReal := V c main_v7
/-- The one-row array of scales. -/
abbrev sarr (c : Dev nD) : S1x64.Idx → EReal := V c main_v17
/-- The one-row array of shifts. -/
abbrev harr (c : Dev nD) : S1x64.Idx → EReal := V c main_v19

/-- Both offsets of a whole-block access are zero. -/
theorem zero_offsets : (![0, 0] : Fin 2 → Nat) = fun _ => 0 := funext fun a => by fin_cases a <;> rfl

/-- One entry of a block's result: the block's entry times the scale of its column plus the shift of its
    column, clipped below at zero. The two one-row operands are laid along every row, so row `r` reads
    their only row. -/
theorem entry (x0 : Vec Ideal S5000x64 .f32) (x1 x2 : Vec Ideal S1x64 .f32) (r : Fin 5000) (q : Fin 64) :
    k2_pay1 (F := Ideal) x0 x1 x2 (ix2 r q)
      = max ((x0 (ix2 r q) : EReal) * x1 (ix2 0 q) + x2 (ix2 0 q)) 0 := by
  unfold k2_pay1
  simp only [shapeCast_self]
  rw [maximumf_apply, addf_apply, mulf_apply, broadcast_apply,
    broadcastTo_1b_ab_apply x1 broadcasts_S1x64_S5000x64 r q,
    broadcastTo_1b_ab_apply x2 broadcasts_S1x64_S5000x64 r q]
  show max _ (Ideal.ofBits .f32 0x00000000#32) = _
  rw [Ideal.ofBits_zero_f32]

/-- The expression the array ends holding, entry by entry. -/
abbrev clipped (c : Dev nD) : S100000x64.Idx → EReal :=
  fun i => max (oarr V c i * sarr V c (ix2 0 (i 1)) + harr V c (ix2 0 (i 1))) 0

/-- Where each point's blocks lie: the block of rows read and the block of rows written are both block `t` of
    twenty, in the only block of columns; the two one-row arrays are taken whole. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry `(r, q)` of the block of the array that point `t` reads is the array's entry at the place where the
    block it writes has `(r, q)`: the two blocks move together. -/
theorem block_o (c : Dev nD) (t : Fin cfg2.N) (r : Fin 5000) (q : Fin 64) :
    (iblk2 V c 0 t : Vec Ideal S5000x64 .f32) (ix2 r q)
      = oarr V c (((cfg2.win 3).blk t).view.emb (ix2 r q)) := by
  obtain ⟨e00, e01, -, -, -, -, e30, e31⟩ := block_indices t
  show V c main_v7 (((cfg2.win 0).blk t).view.emb (ix2 r q)) = V c main_v7 (((cfg2.win 3).blk t).view.emb (ix2 r q))
  refine congrArg (V c main_v7) (funext fun a => Fin.ext ?_)
  match a with
  | ⟨0, _⟩ =>
    show win2_0.index t (0 : Fin 2) * 5000 + 1 * r.val = win2_3.index t (0 : Fin 2) * 5000 + 1 * r.val
    omega
  | ⟨1, _⟩ =>
    show win2_0.index t (1 : Fin 2) * 64 + 1 * q.val = win2_3.index t (1 : Fin 2) * 64 + 1 * q.val
    omega

/-- The one row of scales, taken whole at every point: its entry `q` is the scale of the column in which the
    block written has `(r, q)`. -/
theorem block_s (c : Dev nD) (t : Fin cfg2.N) (r : Fin 5000) (q : Fin 64) :
    (iblk2 V c 1 t : Vec Ideal S1x64 .f32) (ix2 0 q)
      = sarr V c (ix2 0 ((((cfg2.win 3).blk t).view.emb (ix2 r q)) 1)) := by
  obtain ⟨-, -, e10, e11, -, -, e30, e31⟩ := block_indices t
  show V c main_v17 (((cfg2.win 1).blk t).view.emb (ix2 0 q))
    = V c main_v17 (ix2 0 ((((cfg2.win 3).blk t).view.emb (ix2 r q)) 1))
  refine congrArg (V c main_v17) (funext fun a => Fin.ext ?_)
  match a with
  | ⟨0, _⟩ =>
    show win2_1.index t (0 : Fin 2) * 1 + 1 * 0 = 0
    omega
  | ⟨1, _⟩ =>
    show win2_1.index t (1 : Fin 2) * 64 + 1 * q.val = win2_3.index t (1 : Fin 2) * 64 + 1 * q.val
    omega

/-- The one row of shifts, likewise. -/
theorem block_h (c : Dev nD) (t : Fin cfg2.N) (r : Fin 5000) (q : Fin 64) :
    (iblk2 V c 2 t : Vec Ideal S1x64 .f32) (ix2 0 q)
      = harr V c (ix2 0 ((((cfg2.win 3).blk t).view.emb (ix2 r q)) 1)) := by
  obtain ⟨-, -, -, -, e20, e21, e30, e31⟩ := block_indices t
  show V c main_v19 (((cfg2.win 2).blk t).view.emb (ix2 0 q))
    = V c main_v19 (ix2 0 ((((cfg2.win 3).blk t).view.emb (ix2 r q)) 1))
  refine congrArg (V c main_v19) (funext fun a => Fin.ext ?_)
  match a with
  | ⟨0, _⟩ =>
    show win2_2.index t (0 : Fin 2) * 1 + 1 * 0 = 0
    omega
  | ⟨1, _⟩ =>
    show win2_2.index t (1 : Fin 2) * 64 + 1 * q.val = win2_3.index t (1 : Fin 2) * 64 + 1 * q.val
    omega

/-- What point `t` writes back is its block of `clipped`. -/
theorem written (c : Dev nD) (t : Fin cfg2.N) :
    (dat2 (F := Ideal) V c).flushed 3 t = ((cfg2.win 3).blk t).view.read (Elt Ideal) (clipped V c) := by
  show (cfg2.win 3).cut (grid2.coords t) ((dat2 V c).after 3 t) = _
  rw [after2_3]
  unfold out2_3
  rw [View.canon_unit_zero zero_offsets]
  simp only [View.ld_unit_zero (S := S5000x64) zero_offsets, View.ld_unit_zero (S := S1x64) zero_offsets]
  funext j
  obtain ⟨r, q, rfl⟩ : ∃ (r : Fin 5000) (q : Fin 64), j = ix2 r q := ⟨j 0, j 1, eq_ix2 j⟩
  show k2_pay1 (F := Ideal) (iblk2 V c 0 t) (iblk2 V c 1 t) (iblk2 V c 2 t) (ix2 r q)
    = clipped V c (((cfg2.win 3).blk t).view.emb (ix2 r q))
  refine (entry (iblk2 V c 0 t) (iblk2 V c 1 t) (iblk2 V c 2 t) r q).trans ?_
  rw [block_o V c t r q, block_s V c t r q, block_h V c t r q]

/-- An entry of the array lies in the block point `t` writes exactly when each of its coordinates lies in the
    block's range on that axis. -/
theorem mem_block (t : Fin cfg2.N) (i : S100000x64.Idx) :
    i ∈ ((cfg2.win 3).blk t).view.set
      ↔ ∀ a : Fin 2, win2_3.index t a * S5000x64.size a ≤ (i a).val
          ∧ (i a).val < win2_3.index t a * S5000x64.size a + S5000x64.size a := by
  show i ∈ ((View.whole main_v20).slice (win2_3.rect t)).set ↔ _
  rw [View.set_slice_whole, Rect.mem_set_unit]
  exact Iff.rfl

/-- The twenty blocks of 5000 rows tile the 100000 rows: row `p` lies in the block of point `p / 5000`, and every
    point writes its block back. -/
theorem tiled (i : S100000x64.Idx) :
    ∃ t : Fin cfg2.N, (cfg2.win 3).flush t = true ∧ i ∈ ((cfg2.win 3).blk t).view.set := by
  have hN : cfg2.N = 20 := N_2
  have hi0 : (i 0).val < 100000 := (i 0).isLt
  have hi1 : (i 1).val < 64 := (i 1).isLt
  let t : Fin cfg2.N := ⟨(i 0).val / 5000, by rw [hN]; omega⟩
  obtain ⟨-, -, -, -, -, -, e30, e31⟩ := block_indices t
  have ht : t.val = (i 0).val / 5000 := rfl
  refine ⟨t, flush2_3 t, ?_⟩
  rw [mem_block]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 64 ≤ (i 1).val ∧ (i 1).val < win2_3.index t (1 : Fin 2) * 64 + 64
    omega

/-- The array the third grid computation leaves: scale, shift, clip at zero, entry by entry. -/
theorem arr (c : Dev nD) :
    (dat2 (F := Ideal) V c).arrAt 3 cfg2.N
      = (fun i => max (oarr V c i * sarr V c (ix2 0 (i 1)) + harr V c (ix2 0 (i 1))) 0 : S100000x64.Idx → EReal) :=
  (dat2 (F := Ideal) V c).arrAt_eq_of_cover 3 (clipped V c) (fun t _ => written V c t) tiled

end Cert.KernelIdeal.KVal2

end
-- ==== Proof.KHost.lean ====
/-
  The kernel program's result buffer after its run, as one function of the argument arrays.

  Boundary by boundary: the first grid computation leaves the matrix product; the host operations after it
  aggregate it by edges; the second grid computation leaves the column sums and sums of squares of the aggregated
  array; the host operations after it turn those into a scale and a shift per column; the third grid computation
  scales, shifts and clips the aggregated array. No step writes an argument array, and the aggregated array is
  read, never written, by the last two grid computations.

  The host operations are read off an arbitrary valuation of the buffers first (the row fetch in two halves, so
  that each half's composed term stays small), the scale and the shift are read at a column, and the last step is
  stated as mathematics over plain arrays; the run then only names each boundary's array and chains the equations.
-/
import proofs.«416483_j16758962389075_1_alg».proof.Proof.Gen.KernelIdeal.Frame
import proofs.«416483_j16758962389075_1_alg».proof.Proof.KDefs
import proofs.«416483_j16758962389075_1_alg».proof.Proof.Spec
import proofs.«416483_j16758962389075_1_alg».proof.Proof.KVal0
import proofs.«416483_j16758962389075_1_alg».proof.Proof.KVal1
import proofs.«416483_j16758962389075_1_alg».proof.Proof.KVal2
import Idealize.ShloMosaic.Lib.StableHlo.Run
import Idealize.ShloMosaic.Lib.ValueIdx
import Idealize.ShloMosaic.Lib.StableHlo.Predicate

set_option maxRecDepth 16384

noncomputable section

namespace Cert.KernelIdeal.KHost

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-! ## The host operations between the grid computations, read off an arbitrary valuation -/

section HostReads

variable (Wv : Valuation τ sig (Elt Ideal))

set_option maxHeartbeats 1000000 in
attribute [local irreducible] Host.gather Host.scatterAdd Host.reduce in
/-- After the first eighteen operations of the row fetch the range test holds, per edge, whether the start index
    lies inside the table. -/
theorem opsA_v12 :
    StableHlo.after (List.take 18 (hostOps1 (F := Ideal))) Wv (Proc.devRef .tc main_call0_v12)
      = KDefs.inRange (Wv (Proc.devRef .tc main_arg3)) := by
  delta hostOps1
  simp only [List.take_succ_cons, List.take_zero]
  after_results_simp
  dsimp only [StableHlo.TRef.ofBuf, StableHlo.TRef.toBuf]
  simp only [cast_eq]
  unfold KDefs.inRange KDefs.startIdx
  with_reducible rfl

set_option maxHeartbeats 1000000 in
attribute [local irreducible] Host.gather Host.scatterAdd Host.reduce in
/-- … and the column of start indices is the source index with a negative value counted from the end. -/
theorem opsA_v5 :
    StableHlo.after (List.take 18 (hostOps1 (F := Ideal))) Wv (Proc.devRef .tc main_call0_v5)
      = KDefs.startIdx (Wv (Proc.devRef .tc main_arg3)) := by
  delta hostOps1
  simp only [List.take_succ_cons, List.take_zero]
  after_results_simp
  dsimp only [StableHlo.TRef.ofBuf, StableHlo.TRef.toBuf]
  simp only [cast_eq]
  unfold KDefs.startIdx
  with_reducible rfl

set_option maxHeartbeats 1000000 in
attribute [local irreducible] Host.gather Host.scatterAdd Host.reduce in
/-- None of them writes the table the rows are fetched from. -/
theorem opsA_v0 :
    StableHlo.after (List.take 18 (hostOps1 (F := Ideal))) Wv (Proc.devRef .tc main_v0)
      = Wv (Proc.devRef .tc main_v0) := by
  delta hostOps1
  simp only [List.take_succ_cons, List.take_zero]
  after_results_simp

set_option maxHeartbeats 1000000 in
attribute [local irreducible] Host.gather Host.scatterAdd Host.reduce in
/-- The last five operations of the row fetch: fetch the rows, and keep a row only where the range test holds. -/
theorem opsB_v1 :
    StableHlo.after (List.drop 18 (hostOps1 (F := Ideal))) Wv (Proc.devRef .tc main_v1)
      = (select (broadcastInDim S3200000x64 ![0] Facts₀.bcast_S3200000_S3200000x64_0 (Wv (Proc.devRef .tc main_call0_v12)))
          ((fun x i => Host.gather (α := EReal) gather_S100000x64_S3200000x1_S3200000x64_1_0_n_n_0_1_164 x i)
            (Wv (Proc.devRef .tc main_v0)) (Wv (Proc.devRef .tc main_call0_v5)))
          (broadcastInDim S3200000x64 ![] Facts₀.bcast_S_S3200000x64 (constant (F := Ideal) S_ .f32 0x7FC00000#32))
        : FVec Ideal S3200000x64 .f32) := by
  delta hostOps1
  simp only [List.drop_succ_cons, List.drop_zero]
  after_results_simp
  dsimp only [StableHlo.TRef.ofBuf, StableHlo.TRef.toBuf]
  simp only [cast_eq]

/-- The row fetch as a whole leaves the fetched rows, a row out of range replaced. -/
theorem ops1_v1 :
    StableHlo.after (hostOps1 (F := Ideal)) Wv (Proc.devRef .tc main_v1)
      = KDefs.taken (F := Ideal) (Wv (Proc.devRef .tc main_v0)) (Wv (Proc.devRef .tc main_arg3)) := by
  have split : (hostOps1 (F := Ideal)) = List.take 18 hostOps1 ++ List.drop 18 hostOps1 := (List.take_append_drop 18 _).symm
  rw [split, StableHlo.after_append, opsB_v1, opsA_v12, opsA_v5, opsA_v0]
  rfl

set_option maxHeartbeats 1000000 in
/-- The row fetch writes neither the edge weights … -/
theorem ops1_arg2 :
    StableHlo.after (hostOps1 (F := Ideal)) Wv (Proc.devRef .tc main_arg2) = Wv (Proc.devRef .tc main_arg2) := by
  show StableHlo.after hostOps1 _ (Proc.devRef .tc main_arg2) = _
  after_results_simp

set_option maxHeartbeats 1000000 in
/-- … nor the destination indices. -/
theorem ops1_arg4 :
    StableHlo.after (hostOps1 (F := Ideal)) Wv (Proc.devRef .tc main_arg4) = Wv (Proc.devRef .tc main_arg4) := by
  show StableHlo.after hostOps1 _ (Proc.devRef .tc main_arg4) = _
  after_results_simp

attribute [local irreducible] Host.gather Host.scatterAdd Host.reduce in
/-- The seven operations after the row fetch: weigh each fetched row by its edge's weight and sum the rows by
    destination node into an array of zeros. -/
theorem ops11_v7 :
    StableHlo.after (hostOps1_1 (F := Ideal)) Wv (Proc.devRef .tc main_v7)
      = (fun x i u => Host.scatterAdd (F := Ideal) scatter_S100000x64_S3200000x1_S3200000x64_1_0_0_1 x i u)
          (broadcastInDim S100000x64 ![] Facts₀.bcast_S_S100000x64 (constant (F := Ideal) S_ .f32 0x00000000#32))
          (broadcastInDim S3200000x1 ![0] Facts₀.bcast_S3200000_S3200000x1_0 (Wv (Proc.devRef .tc main_arg4)))
          (mulf (broadcastInDim S3200000x64 ![0, 1] Facts₀.bcast_S3200000x1_S3200000x64_0_1
            (broadcastInDim S3200000x1 ![0] Facts₀.bcast_S3200000_S3200000x1_0 (Wv (Proc.devRef .tc main_arg2))))
            (Wv (Proc.devRef .tc main_v1))) := by
  show StableHlo.after hostOps1_1 _ (Proc.devRef .tc main_v7) = _
  after_results

/-- Both stretches together: the aggregation by edges of the array the first grid computation left. -/
theorem agg_read :
    StableHlo.after (hostOps1_1 (F := Ideal)) (StableHlo.after (hostOps1 (F := Ideal)) Wv) (Proc.devRef .tc main_v7)
      = KDefs.agg (F := Ideal) (Wv (Proc.devRef .tc main_v0)) (Wv (Proc.devRef .tc main_arg2))
          (Wv (Proc.devRef .tc main_arg3)) (Wv (Proc.devRef .tc main_arg4)) := by
  rw [ops11_v7, ops1_v1, ops1_arg2, ops1_arg4]
  rfl

attribute [local irreducible] Host.divf Host.rsqrt Host.negf in
/-- The fourteen operations after the second grid computation leave the scale … -/
theorem ops2_scale :
    StableHlo.after (hostOps2 (F := Ideal)) Wv (Proc.devRef .tc main_v17)
      = KDefs.scale (F := Ideal) (Wv (Proc.devRef .tc main_v8_0)) (Wv (Proc.devRef .tc main_v8_1)) := by
  show StableHlo.after hostOps2 _ (Proc.devRef .tc main_v17) = _
  after_results_simp
  rfl

attribute [local irreducible] Host.divf Host.rsqrt Host.negf in
/-- … the shift … -/
theorem ops2_shift :
    StableHlo.after (hostOps2 (F := Ideal)) Wv (Proc.devRef .tc main_v19)
      = KDefs.shift (F := Ideal) (Wv (Proc.devRef .tc main_v8_0)) (Wv (Proc.devRef .tc main_v8_1)) := by
  show StableHlo.after hostOps2 _ (Proc.devRef .tc main_v19) = _
  after_results_simp
  rfl

/-- … and do not write the aggregated array. -/
theorem ops2_v7 :
    StableHlo.after (hostOps2 (F := Ideal)) Wv (Proc.devRef .tc main_v7) = Wv (Proc.devRef .tc main_v7) := by
  show StableHlo.after hostOps2 _ (Proc.devRef .tc main_v7) = _
  after_results_simp

end HostReads

/-! ## The scale and the shift at a column -/

open StableHlo.Predicate in
/-- A scalar constant laid along the one-row array reads the extended real its word encodes. -/
theorem bconst_apply (b : BitVec 32) (j : S1x64.Idx) :
    broadcastInDim S1x64 ![] Facts₀.bcast_S_S1x64 (constant (F := Ideal) S_ .f32 b) j = Ideal.ofBits .f32 b := by
  rw [bcast_scalar _ (by decide)]
  rfl

/-- The mean at a column: the column sum over the row count. -/
theorem meanOf_apply (s1 : FVec Ideal S1x64 .f32) (j : S1x64.Idx) :
    KDefs.meanOf (F := Ideal) s1 j = Ideal.div (s1 j) Cert.Spec.nN := by
  unfold KDefs.meanOf
  show FloatOps.hostDivf (s1 j) (broadcastInDim S1x64 ![] Facts₀.bcast_S_S1x64 (constant (F := Ideal) S_ .f32 0x47C35000#32) j) = _
  rw [bconst_apply]
  rfl

/-- The scale at a column: the reciprocal root of mean of squares minus squared mean plus the small constant. -/
theorem scale_apply (s1 s2 : FVec Ideal S1x64 .f32) (j : S1x64.Idx) :
    KDefs.scale (F := Ideal) s1 s2 j
      = Ideal.rsqrt (Ideal.div (s2 j) Cert.Spec.nN - Ideal.div (s1 j) Cert.Spec.nN * Ideal.div (s1 j) Cert.Spec.nN + Cert.Spec.eps) := by
  unfold KDefs.scale
  show FloatOps.hostUnary .rsqrt
      (FloatOps.hostDivf (s2 j) (broadcastInDim S1x64 ![] Facts₀.bcast_S_S1x64 (constant (F := Ideal) S_ .f32 0x47C35000#32) j)
        - KDefs.meanOf (F := Ideal) s1 j * KDefs.meanOf (F := Ideal) s1 j
        + broadcastInDim S1x64 ![] Facts₀.bcast_S_S1x64 (constant (F := Ideal) S_ .f32 0x3A83126F#32) j) = _
  rw [bconst_apply, bconst_apply, meanOf_apply]
  rfl

/-- The shift at a column: minus the mean, times the scale. -/
theorem shift_apply (s1 s2 : FVec Ideal S1x64 .f32) (j : S1x64.Idx) :
    KDefs.shift (F := Ideal) s1 s2 j = -(Ideal.div (s1 j) Cert.Spec.nN) * KDefs.scale (F := Ideal) s1 s2 j := by
  unfold KDefs.shift
  show FloatOps.hostNegf (KDefs.meanOf (F := Ideal) s1 j) * KDefs.scale (F := Ideal) s1 s2 j = _
  rw [meanOf_apply]
  rfl

/-! ## The last step as mathematics: scale, shift and clip of an array by its own column statistics -/

/-- With the two one-row arrays at the column sums and sums of squares of `o`, the scale and the shift formed from
    them, and the output `max (o·scale + shift) 0` entry by entry, the output is the normalisation of `o`. -/
theorem compose (o o5 : Cert.Spec.SN.Idx → EReal) (s1 s2 sc sh : S1x64.Idx → EReal) (out : Cert.Spec.SN.Idx → EReal)
    (ho : o5 = o)
    (h1 : s1 = fun j => Cert.Spec.colSum o (j 1)) (h2 : s2 = fun j => Cert.Spec.colSumSq o (j 1))
    (hsc : sc = KDefs.scale (F := Ideal) s1 s2) (hsh : sh = KDefs.shift (F := Ideal) s1 s2)
    (hout : out = fun i => max (o5 i * sc (ix2 0 (i 1)) + sh (ix2 0 (i 1))) 0) :
    out = Cert.Spec.bnK o := by
  subst ho hsc hsh hout
  funext i
  obtain ⟨p, q, rfl⟩ : ∃ (p : Fin 100000) (q : Fin 64), i = ix2 p q := ⟨i 0, i 1, eq_ix2 i⟩
  unfold Cert.Spec.bnK Cert.Spec.shiftK Cert.Spec.scaleK Cert.Spec.mean
  rw [shift_apply, scale_apply, h1, h2]

/-! ## The run, boundary by boundary -/

/-- The first grid computation leaves the matrix product of the first two arguments. -/
theorem W1_v0 (c : Dev nD) :
    W1 m ρ c (Proc.devRef .tc main_v0)
      = Cert.Spec.matmul (m ((c.tc : Thread nD τ).loc main_arg0)) (m ((c.tc : Thread nD τ).loc main_arg1)) :=
  (W1_arr m ρ c 2).trans (KVal0.arr (V0 m ρ) c)

/-- Region 1's entry holds the aggregation of that product at the aggregated array's buffer. -/
theorem W3_v7 (c : Dev nD) :
    W3 m ρ c (Proc.devRef .tc main_v7)
      = KDefs.agg (F := Ideal) (Cert.Spec.matmul (m ((c.tc : Thread nD τ).loc main_arg0)) (m ((c.tc : Thread nD τ).loc main_arg1)))
          (m ((c.tc : Thread nD τ).loc main_arg2)) (m ((c.tc : Thread nD τ).loc main_arg3)) (m ((c.tc : Thread nD τ).loc main_arg4)) := by
  have e0 := W1_v0 m ρ c
  have e2 : W1 m ρ c (Proc.devRef .tc main_arg2) = m ((c.tc : Thread nD τ).loc main_arg2) := W1_of_ne m ρ c main_arg2 (by decide)
  have e3 : W1 m ρ c (Proc.devRef .tc main_arg3) = m ((c.tc : Thread nD τ).loc main_arg3) := W1_of_ne m ρ c main_arg3 (by decide)
  have e4 : W1 m ρ c (Proc.devRef .tc main_arg4) = m ((c.tc : Thread nD τ).loc main_arg4) := W1_of_ne m ρ c main_arg4 (by decide)
  show StableHlo.after hostOps1_1 (StableHlo.after hostOps1 (W1 m ρ c)) (Proc.devRef .tc main_v7) = _
  rw [agg_read, e0, e2, e3, e4]

/-- The result buffer's final contents: normalise (by scale and shift) the aggregation of the matrix product. -/
theorem value (c : Dev nD) :
    W6 (F := Ideal) m ρ c (Proc.devRef .tc main_v20)
      = Cert.Spec.bnK (KDefs.agg (F := Ideal) (Cert.Spec.matmul (m ((c.tc : Thread nD τ).loc main_arg0)) (m ((c.tc : Thread nD τ).loc main_arg1)))
          (m ((c.tc : Thread nD τ).loc main_arg2)) (m ((c.tc : Thread nD τ).loc main_arg3)) (m ((c.tc : Thread nD τ).loc main_arg4))) := by
  have e7 := W3_v7 m ρ c
  -- the aggregated array is an input of the last two grid computations and no host operation after it writes it
  have e47 : W4 m ρ c (Proc.devRef .tc main_v7) = W3 m ρ c (Proc.devRef .tc main_v7) :=
    (W4_arr m ρ c 0).trans (((dat1 (V3 m ρ) c).arrAt_in 0 rfl _).trans (A_eq1 (V3 m ρ) c 0))
  have e57 : W5 m ρ c (Proc.devRef .tc main_v7) = W4 m ρ c (Proc.devRef .tc main_v7) := ops2_v7 (W4 m ρ c)
  -- the second grid computation's two outputs
  have e80 : W4 m ρ c (Proc.devRef .tc main_v8_0) = fun j => Cert.Spec.colSum (V3 m ρ c main_v7) (j 1) :=
    (W4_arr m ρ c 1).trans (KVal1.arr_sum (V3 m ρ) c)
  have e81 : W4 m ρ c (Proc.devRef .tc main_v8_1) = fun j => Cert.Spec.colSumSq (V3 m ρ c main_v7) (j 1) :=
    (W4_arr m ρ c 2).trans (KVal1.arr_sumsq (V3 m ρ) c)
  -- the third grid computation's output
  have e20 := (W6_arr m ρ c 3).trans (KVal2.arr (V5 m ρ) c)
  exact compose _ (KVal2.oarr (V5 m ρ) c) (W4 m ρ c (Proc.devRef .tc main_v8_0)) (W4 m ρ c (Proc.devRef .tc main_v8_1))
    (KVal2.sarr (V5 m ρ) c) (KVal2.harr (V5 m ρ) c) _
    (e57.trans (e47.trans e7))
    (e80.trans (congrArg (fun (x : Cert.Spec.SN.Idx → EReal) => fun (j : S1x64.Idx) => Cert.Spec.colSum x (j 1)) e7))
    (e81.trans (congrArg (fun (x : Cert.Spec.SN.Idx → EReal) => fun (j : S1x64.Idx) => Cert.Spec.colSumSq x (j 1)) e7))
    (ops2_scale (W4 m ρ c)) (ops2_shift (W4 m ρ c)) e20

end Cert.KernelIdeal.KHost

end
-- ==== Proof.RefRun.lean ====
/-
  The reference program's run: it is one straight line of host operations (the three functions it calls
  written out where they are called), so every weakly fair execution ends with each buffer at the operations'
  composed value of the arguments: the result buffer at `RDefs.result` of the five argument arrays, the
  argument arrays untouched.
-/
import proofs.«416483_j16758962389075_1_alg».proof.ReferenceIdeal
import proofs.«416483_j16758962389075_1_alg».proof.Proof.Gen.ReferenceIdeal
import proofs.«416483_j16758962389075_1_alg».proof.Proof.RDefs
import Idealize.ShloMosaic.Lib.StableHlo.Run
import Idealize.ShloMosaic.PureOps.Ideal

noncomputable section

namespace Cert.ReferenceIdeal.RefRun

open Idealize.ShloMosaic Idealize.ShloMosaic.TcCoe Idealize.SL.Sem
open Cert.ReferenceIdeal Cert.ReferenceIdeal.Gen

section Line

open Idealize.ShloMosaic.StableHlo

variable {F : FTy → Type} [FloatOps F]

/-- The program as one list, in execution order. First the aggregation: the matrix product; the edge weights as a
    column; the source indices with negative ones shifted by the node count, as a column; the product's rows fetched
    at them, scaled by the weights, and summed by destination node into zeros. Then the column means. Then the
    second-moment function written out over its own buffers: the column sums again, over a row of shape 1×64, divided
    by the node count; the centred squares; the divisor (node count minus the converted integer zero); the summed
    squares over the divisor; the test that the divisor is positive; the not-a-number scalar; and the selection
    function's three steps (that scalar kept as it is, broadcast, the select). Then the centring by the means, the
    reciprocal square root of the second moment plus the small constant, the product, and the clipping function's
    three steps (zero, its broadcast, the maximum). -/
abbrev ops : List (HloOp τ sig (Elt F)) :=
  [ binary main_arg0 main_arg1 main_v0 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg2 main_v1 (broadcastInDim S3200000x1 ![0] bcast_S3200000_S3200000x1_0 : (⟨S3200000, .f32⟩ : BufTy).Contents (Elt F) → (⟨S3200000x1, .f32⟩ : BufTy).Contents (Elt F)),
    nullary main_c (constantI S_ 32 0#32),
    unary main_c main_v2 (broadcastInDim S3200000 ![] bcast_S_S3200000 : (⟨S_, .i32⟩ : BufTy).Contents (Elt F) → (⟨S3200000, .i32⟩ : BufTy).Contents (Elt F)),
    binary main_arg3 main_v2 main_v3 (cmpi .slt : (⟨S3200000, .i32⟩ : BufTy).Contents (Elt F) → (⟨S3200000, .i32⟩ : BufTy).Contents (Elt F) → (⟨S3200000, .i1⟩ : BufTy).Contents (Elt F)),
    nullary main_c_0 (constantI S_ 32 100000#32),
    unary main_c_0 main_v4 (broadcastInDim S3200000 ![] bcast_S_S3200000 : (⟨S_, .i32⟩ : BufTy).Contents (Elt F) → (⟨S3200000, .i32⟩ : BufTy).Contents (Elt F)),
    binary main_arg3 main_v4 main_v5 (addi : (⟨S3200000, .i32⟩ : BufTy).Contents (Elt F) → (⟨S3200000, .i32⟩ : BufTy).Contents (Elt F) → (⟨S3200000, .i32⟩ : BufTy).Contents (Elt F)),
    ternary main_v3 main_v5 main_arg3 main_v6 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v6 main_v7 (broadcastInDim S3200000x1 ![0] bcast_S3200000_S3200000x1_0 : (⟨S3200000, .i32⟩ : BufTy).Contents (Elt F) → (⟨S3200000x1, .i32⟩ : BufTy).Contents (Elt F)),
    binary main_v0 main_v7 main_v8 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    unary main_v1 main_v9 (broadcastInDim S3200000x64 ![0, 1] bcast_S3200000x1_S3200000x64_0_1 : (⟨S3200000x1, .f32⟩ : BufTy).Contents (Elt F) → (⟨S3200000x64, .f32⟩ : BufTy).Contents (Elt F)),
    binary main_v9 main_v8 main_v10 (mulf : (⟨S3200000x64, .f32⟩ : BufTy).Contents (Elt F) → (⟨S3200000x64, .f32⟩ : BufTy).Contents (Elt F) → (⟨S3200000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_arg4 main_v12 (broadcastInDim S3200000x1 ![0] bcast_S3200000_S3200000x1_0 : (⟨S3200000, .i32⟩ : BufTy).Contents (Elt F) → (⟨S3200000x1, .i32⟩ : BufTy).Contents (Elt F)),
    ternary main_v11 main_v12 main_v10 main_v13 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    nullary main_cst_1 (constant S_ .f32 0x00000000#32),
    binary main_v13 main_cst_1 main_v14 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_2 (constant S_ .f32 0x47C35000#32),
    unary main_cst_2 main_v15 (broadcastInDim S64 ![] bcast_S_S64 : (⟨S_, .f32⟩ : BufTy).Contents (Elt F) → (⟨S64, .f32⟩ : BufTy).Contents (Elt F)),
    binary main_v14 main_v15 main_v16 (Host.divf : (⟨S64, .f32⟩ : BufTy).Contents (Elt F) → (⟨S64, .f32⟩ : BufTy).Contents (Elt F) → (⟨S64, .f32⟩ : BufTy).Contents (Elt F)),
    nullary main_c_3 (constantI S_ 32 0#32),
    TRef.nullary main_call0.cst (constant S_ .f32 0x00000000#32),
    TRef.binary (.of main_v13) main_call0.cst main_call0.v0 (fun x v => Host.reduceAdd x v reducesTo_S100000x64_S64_d0 h_S_),
    TRef.unary main_call0.v0 main_call0.v1 (broadcastInDim S1x64 ![1] bcast_S64_S1x64_1),
    TRef.nullary main_call0.cst_0 (constant S_ .f32 0x47C35000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S100000x64 ![0, 1] bcast_S1x64_S100000x64_0_1),
    TRef.binary (.of main_v13) main_call0.v4 main_call0.v5 subf,
    TRef.binary main_call0.v5 main_call0.v5 main_call0.v6 mulf,
    TRef.unary (.of main_c_3) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    unary main_v16 main_v18 (broadcastInDim S1x64 ![1] bcast_S64_S1x64_1 : (⟨S64, .f32⟩ : BufTy).Contents (Elt F) → (⟨S1x64, .f32⟩ : BufTy).Contents (Elt F)),
    unary main_v18 main_v19 (broadcastInDim S100000x64 ![0, 1] bcast_S1x64_S100000x64_0_1 : (⟨S1x64, .f32⟩ : BufTy).Contents (Elt F) → (⟨S100000x64, .f32⟩ : BufTy).Contents (Elt F)),
    binary main_v13 main_v19 main_v20 (subf : (⟨S100000x64, .f32⟩ : BufTy).Contents (Elt F) → (⟨S100000x64, .f32⟩ : BufTy).Contents (Elt F) → (⟨S100000x64, .f32⟩ : BufTy).Contents (Elt F)),
    nullary main_cst_4 (constant S_ .f32 0x3A83126F#32),
    unary main_cst_4 main_v21 (broadcastInDim S64 ![] bcast_S_S64 : (⟨S_, .f32⟩ : BufTy).Contents (Elt F) → (⟨S64, .f32⟩ : BufTy).Contents (Elt F)),
    binary main_v17 main_v21 main_v22 (addf : (⟨S64, .f32⟩ : BufTy).Contents (Elt F) → (⟨S64, .f32⟩ : BufTy).Contents (Elt F) → (⟨S64, .f32⟩ : BufTy).Contents (Elt F)),
    unary main_v22 main_v23 (Host.rsqrt : (⟨S64, .f32⟩ : BufTy).Contents (Elt F) → (⟨S64, .f32⟩ : BufTy).Contents (Elt F)),
    unary main_v23 main_v24 (broadcastInDim S1x64 ![1] bcast_S64_S1x64_1 : (⟨S64, .f32⟩ : BufTy).Contents (Elt F) → (⟨S1x64, .f32⟩ : BufTy).Contents (Elt F)),
    unary main_v24 main_v25 (broadcastInDim S100000x64 ![0, 1] bcast_S1x64_S100000x64_0_1 : (⟨S1x64, .f32⟩ : BufTy).Contents (Elt F) → (⟨S100000x64, .f32⟩ : BufTy).Contents (Elt F)),
    binary main_v20 main_v25 main_v26 (mulf : (⟨S100000x64, .f32⟩ : BufTy).Contents (Elt F) → (⟨S100000x64, .f32⟩ : BufTy).Contents (Elt F) → (⟨S100000x64, .f32⟩ : BufTy).Contents (Elt F)),
    TRef.nullary main_call1.cst (constant S_ .f32 0x00000000#32),
    TRef.unary main_call1.cst main_call1.v0 (broadcastInDim S100000x64 ![] bcast_S_S100000x64),
    TRef.binary (.of main_v26) main_call1.v0 main_call1.v1 maximumf ]

-- fifty-eight steps, each one more level of nested sequencing to reassociate
set_option maxRecDepth 4096 in
/-- The program is that list run in order: with the three functions' bodies put where they are called, both sides
    are the same chain of single steps. -/
theorem main_eq (c : Dev nD) : main (F := F) c = seq ops := by
  simp only [main, fn_var.body, fn_where.body, fn_relu.body, seq, bind_assoc, pure_bind]

-- the composed term repeats the aggregated array under each of its four readers
attribute [local irreducible] Host.reduceAdd Host.gather Host.scatterAdd in
set_option maxRecDepth 8192 in
set_option maxHeartbeats 800000 in
/-- What the result buffer holds after the whole list, from any starting contents: unrolling the list, each step's
    value is its operation applied to the values of the steps it reads, and that nesting is `RDefs.result` of the
    five arguments' starting contents written out (the same sums, gather and scatter on both sides, kept closed). -/
theorem out_eq (V : Valuation τ sig (Elt F)) :
    after ops V (main_v27 : DevRef τ sig)
      = RDefs.result (V (main_arg0 : DevRef τ sig)) (V (main_arg1 : DevRef τ sig)) (V (main_arg2 : DevRef τ sig))
          (V (main_arg3 : DevRef τ sig)) (V (main_arg4 : DevRef τ sig)) := by
  simp only [after_cons, after_nil]
  rfl

/-- No step writes the first argument. -/
theorem arg0_eq (V : Valuation τ sig (Elt F)) :
    after ops V (main_arg0 : DevRef τ sig) = V (main_arg0 : DevRef τ sig) := by
  simp only [after_cons, after_nil]
  rfl

/-- No step writes the second argument. -/
theorem arg1_eq (V : Valuation τ sig (Elt F)) :
    after ops V (main_arg1 : DevRef τ sig) = V (main_arg1 : DevRef τ sig) := by
  simp only [after_cons, after_nil]
  rfl

/-- No step writes the third argument. -/
theorem arg2_eq (V : Valuation τ sig (Elt F)) :
    after ops V (main_arg2 : DevRef τ sig) = V (main_arg2 : DevRef τ sig) := by
  simp only [after_cons, after_nil]
  rfl

/-- No step writes the fourth argument. -/
theorem arg3_eq (V : Valuation τ sig (Elt F)) :
    after ops V (main_arg3 : DevRef τ sig) = V (main_arg3 : DevRef τ sig) := by
  simp only [after_cons, after_nil]
  rfl

/-- No step writes the fifth argument. -/
theorem arg4_eq (V : Valuation τ sig (Elt F)) :
    after ops V (main_arg4 : DevRef τ sig) = V (main_arg4 : DevRef τ sig) := by
  simp only [after_cons, after_nil]
  rfl

/-- No buffer of the signature is scoped. -/
theorem scopedRefs_eq : (Finset.univ.filter fun b : Ref sig .tc => b.isScoped) = ∅ := by decide

/-- The signature has no semaphore, so none is scoped. -/
theorem scopedSems_eq : (Finset.univ.filter fun sm : SemLoc sig => sm.isScoped .tc) = ∅ := by decide

/-- Every step touches only buffers of the one core that runs the program. -/
theorem ops_sub : (ops : List (HloOp τ sig (Elt F))).Forall fun op => op.bufs ⊆ tcRefs τ sig :=
  ⟨binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., nullary_bufs_sub .., unary_bufs_sub .., binary_bufs_sub ..⟩

end Line

/-- Every weakly fair execution of the reference terminates with its result buffer at `RDefs.result` of the argument
    arrays, and the argument arrays as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v27)
        = RDefs.result (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono
    (fun _ h c =>
      ⟨(h c main_v27).trans (out_eq (StableHlo.launchContents m c)),
        (h c main_arg0).trans (arg0_eq (StableHlo.launchContents m c)),
        (h c main_arg1).trans (arg1_eq (StableHlo.launchContents m c)),
        (h c main_arg2).trans (arg2_eq (StableHlo.launchContents m c)),
        (h c main_arg3).trans (arg3_eq (StableHlo.launchContents m c)),
        (h c main_arg4).trans (arg4_eq (StableHlo.launchContents m c))⟩)
    (StableHlo.run_seq scopedRefs_eq scopedSems_eq (defs (F := Ideal)) (main (F := Ideal)) (fun _ => ops) main_eq
      (fun _ => ops_sub) m ρ)

end Cert.ReferenceIdeal.RefRun

end
-- ==== Proof.RVal.lean ====
/-
  The reference's result, read entry by entry.

  Its matrix product is `∑ₖ x(p,k)·w(k,q)`. Its normalisation of an array `o`: the column mean is
  `(0 + ∑ₚ o(p,q))/N`; the second moment about it is divided by `N − 0`, a positive number, so the guard on the
  divisor keeps it; the rest is `(o − μ)·(1/√(v + ε))` clipped at zero, the one-row arrays laid along every row.
  So the result is the normalisation `Spec.bnR` of the aggregation of `Spec.matmul`.
-/
import proofs.«416483_j16758962389075_1_alg».proof.Proof.RDefs
import proofs.«416483_j16758962389075_1_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal
import Idealize.ShloMosaic.PureOps.Ideal.Laws

noncomputable section

namespace Cert.RVal

open Idealize.ShloMosaic Idealize.ShloMosaic.ValueIdx Cert.ReferenceIdeal Cert.ReferenceIdeal.Facts₀
open Idealize.ShloMosaic.StableHlo

variable [Cert.ReferenceIdeal.Facts]

/-! ## The matrix product

  The contraction runs over one axis: the left operand's columns against the right operand's rows. At the
  result's entry `(p, q)` and summation index `k` the left operand is read at `(p, k)` and the right at `(k, q)`;
  the four coordinates are four separate facts. -/

/-- The left operand's row coordinate is the result's row. -/
theorem lhs_axis0 (i : S100000x64.Idx) (c : dot_S100000x128_S128x64_S100000x64_1_0_0_1_n_n.contr.Idx) :
    (dot_S100000x128_S128x64_S100000x64_1_0_0_1_n_n.lhsIdx i c 0).val = (i 0).val := by
  unfold DotDims.lhsIdx
  rw [dif_neg (show ¬(0 : Fin S100000x128.rank) ∈ dot_S100000x128_S128x64_S100000x64_1_0_0_1_n_n.lhsBatch from List.not_mem_nil),
    dif_pos (show (0 : Fin S100000x128.rank) ∈ dot_S100000x128_S128x64_S100000x64_1_0_0_1_n_n.lhsNonContracting from List.mem_singleton_self _)]
  rfl

/-- The left operand's column coordinate is the summation index. -/
theorem lhs_axis1 (i : S100000x64.Idx) (c : dot_S100000x128_S128x64_S100000x64_1_0_0_1_n_n.contr.Idx) :
    (dot_S100000x128_S128x64_S100000x64_1_0_0_1_n_n.lhsIdx i c 1).val
      = (c ⟨0, (show 0 < dot_S100000x128_S128x64_S100000x64_1_0_0_1_n_n.contr.rank from Nat.one_pos)⟩).val :=
  dot_S100000x128_S128x64_S100000x64_1_0_0_1_n_n.lhsIdx_val_of_single rfl i c

/-- The right operand's row coordinate is the summation index. -/
theorem rhs_axis0 (i : S100000x64.Idx) (c : dot_S100000x128_S128x64_S100000x64_1_0_0_1_n_n.contr.Idx) :
    (dot_S100000x128_S128x64_S100000x64_1_0_0_1_n_n.rhsIdx i c 0).val
      = (c ⟨0, (show 0 < dot_S100000x128_S128x64_S100000x64_1_0_0_1_n_n.contr.rank from Nat.one_pos)⟩).val :=
  dot_S100000x128_S128x64_S100000x64_1_0_0_1_n_n.rhsIdx_val_of_single rfl i c

/-- The right operand's column coordinate is the result's column. -/
theorem rhs_axis1 (i : S100000x64.Idx) (c : dot_S100000x128_S128x64_S100000x64_1_0_0_1_n_n.contr.Idx) :
    (dot_S100000x128_S128x64_S100000x64_1_0_0_1_n_n.rhsIdx i c 1).val = (i 1).val := by
  unfold DotDims.rhsIdx
  rw [dif_neg (show ¬(1 : Fin S128x64.rank) ∈ dot_S100000x128_S128x64_S100000x64_1_0_0_1_n_n.rhsBatch from List.not_mem_nil),
    dif_pos (show (1 : Fin S128x64.rank) ∈ dot_S100000x128_S128x64_S100000x64_1_0_0_1_n_n.rhsNonContracting from List.mem_singleton_self _)]
  rfl

/-- The host's contraction of the two arguments is the matrix product, entry by entry. -/
theorem dot_eq (a0 : FVec Ideal S100000x128 .f32) (a1 : FVec Ideal S128x64 .f32) :
    (fun l r => Host.dotGeneral (F := Ideal) dot_S100000x128_S128x64_S100000x64_1_0_0_1_n_n none l r) a0 a1
      = Cert.Spec.matmul a0 a1 := by
  funext i
  show FloatOps.dotGeneral dot_S100000x128_S128x64_S100000x64_1_0_0_1_n_n none .single a0 a1 i = _
  unfold Cert.Spec.matmul
  -- the sum over the one-axis summation indices is the sum over `k < 128`
  rw [Ideal.dotGeneral_apply,
    ← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx i
      ((contrEquiv1 dot_S100000x128_S128x64_S100000x64_1_0_0_1_n_n 128 rfl rfl).symm k) = ix2 (i 0) k :=
    funext fun a => Fin.ext (by
      match a with
      | ⟨0, _⟩ => exact lhs_axis0 _ _
      | ⟨1, _⟩ => exact (lhs_axis1 _ _).trans hk)
  have er : dot_S100000x128_S128x64_S100000x64_1_0_0_1_n_n.rhsIdx i
      ((contrEquiv1 dot_S100000x128_S128x64_S100000x64_1_0_0_1_n_n 128 rfl rfl).symm k) = ix2 k (i 1) :=
    funext fun a => Fin.ext (by
      match a with
      | ⟨0, _⟩ => exact (rhs_axis0 _ _).trans hk
      | ⟨1, _⟩ => exact rhs_axis1 _ _)
  exact congrArg₂ (· * ·) (congrArg a0 el) (congrArg a1 er)

/-! ## The normalisation

  Every piece is read at explicit coordinates: a row `p < 100000` and a column `q < 64`. -/

/-- The two ways of writing the entry `(p, q)` of a matrix name the same index. -/
theorem ij_eq {n m : Nat} (p : Fin n) (q : Fin m) : Predicate.ij p q = ix2 p q :=
  funext fun a => by
    match a with
    | ⟨0, _⟩ => rfl
    | ⟨1, _⟩ => rfl

/-- Likewise the entry `q` of a vector. -/
theorem ofFin_eq {n : Nat} (q : Fin n) : Shape.Idx.ofFin q = ix1 q :=
  funext fun a => by
    match a with
    | ⟨0, _⟩ => exact Fin.ext rfl

/-- A one-entry array laid over any shape reads its one entry everywhere; for a constant that entry is the constant. -/
theorem scal_apply {t : Shape} (h : S_.BroadcastsInDim t ![]) (b : BitVec 32) (j : t.Idx) :
    broadcastInDim t ![] h (constant (F := Ideal) S_ .f32 b) j = Ideal.ofBits .f32 b := by
  rw [Predicate.bcast_scalar h h_S_]
  rfl

/-- The host's quotient acts entry by entry. -/
theorem hdivf_apply {s : Shape} (x y : FVec Ideal s .f32) (i : s.Idx) : Host.divf x y i = Ideal.div (x i) (y i) := rfl

/-- The host's reciprocal root acts entry by entry. -/
theorem hrsqrt_apply {s : Shape} (x : FVec Ideal s .f32) (i : s.Idx) : Host.rsqrt x i = Ideal.rsqrt (x i) := rfl

/-- Summing over the rows from the zero word gives the column's sum: `0 + ∑ₚ x(p,q) = ∑ₚ x(p,q)`. -/
theorem colsum_apply (x : FVec Ideal S100000x64 .f32) (q : Fin 64) :
    Host.reduceAdd (F := Ideal) x (constant S_ .f32 0x00000000#32) reducesTo_S100000x64_S64_d0 h_S_ (ix1 q)
      = Cert.Spec.colSum x q := by
  have h : S100000x64.Reduces [0] S64 := by decide
  show Ideal.hostReduceAdd reducesTo_S100000x64_S64_d0 x (Ideal.ofBits .f32 0x00000000#32) (ix1 q) = _
  rw [Ideal.hostReduceAdd_single reducesTo_S100000x64_S64_d0 h, Ideal.ofBits_zero_f32, zero_add]
  unfold Cert.Spec.colSum
  -- the index over column `q` with row coordinate `p` inserted is `(p, q)`
  refine Finset.sum_congr rfl fun p _ => congrArg x (funext fun a => Fin.ext ?_)
  match a with
  | ⟨0, _⟩ => rfl
  | ⟨1, _⟩ => rfl

/-- The divisor of the second moment is `N`: the integer zero, read as a real, is zero, and `N − 0 = N`. -/
theorem dof_apply (j : S_.Idx) : RDefs.dof (F := Ideal) j = Cert.Spec.nN := by
  show Ideal.ofBits .f32 0x47C35000#32 - (((0#32 : BitVec 32).toInt : ℝ) : EReal) = Cert.Spec.nN
  have z : (0#32 : BitVec 32).toInt = 0 := by decide
  rw [z, Int.cast_zero, EReal.coe_zero, sub_zero]
  rfl

/-- The divisor `N = 100000` is positive, so the comparison with zero answers yes. -/
theorem guard_apply (j : S_.Idx) :
    cmpf .ogt (RDefs.dof (F := Ideal)) (constant S_ .f32 0x00000000#32) j = 1#1 := by
  show Ideal.cmp .ogt (RDefs.dof (F := Ideal) j) (Ideal.ofBits .f32 0x00000000#32) = 1#1
  rw [dof_apply, Ideal.ofBits_zero_f32, Cert.Spec.nN_eq]
  have pos : (0 : EReal) < ((100000 : ℝ) : EReal) := EReal.coe_pos.mpr (by norm_num)
  unfold Ideal.cmp
  simp only [pos, decide_true]
  rfl

/-- The column mean computed over a one-row array and laid along every row reads, at `(p, q)`, column `q`'s mean. -/
theorem rowMean_apply (o : FVec Ideal S100000x64 .f32) (p : Fin 100000) (q : Fin 64) :
    broadcastInDim S100000x64 ![0, 1] bcast_S1x64_S100000x64_0_1
        (Host.divf (broadcastInDim S1x64 ![1] bcast_S64_S1x64_1
            (Host.reduceAdd (F := Ideal) o (constant S_ .f32 0x00000000#32) reducesTo_S100000x64_S64_d0 h_S_))
          (broadcastInDim S1x64 ![] bcast_S_S1x64 (constant S_ .f32 0x47C35000#32))) (ix2 p q)
      = Cert.Spec.mean o q := by
  rw [← ij_eq, Predicate.bcast_of_row bcast_S1x64_S100000x64_0_1, hdivf_apply,
    Predicate.bcast_row1 bcast_S64_S1x64_1, ofFin_eq, colsum_apply, scal_apply]
  rfl

/-- The reference's column mean is the specification's: the column sum over `N`. -/
theorem meanOf_apply (o : FVec Ideal S100000x64 .f32) (q : Fin 64) :
    RDefs.meanOf (F := Ideal) o (ix1 q) = Cert.Spec.mean o q := by
  unfold RDefs.meanOf
  beta_reduce
  rw [hdivf_apply, colsum_apply, scal_apply]
  rfl

/-- The reference's second moment about the mean: the guard on the divisor keeps the quotient, whose divisor is `N`
    and whose numerator is the sum of the squared deviations `∑ₚ (o(p,q) − μ)²`. -/
theorem varOf_apply (o : FVec Ideal S100000x64 .f32) (q : Fin 64) :
    RDefs.varOf (F := Ideal) o (ix1 q) = Cert.Spec.varR o q := by
  unfold RDefs.varOf
  simp only [select_apply]
  rw [Predicate.bcast_scalar bcast_S_S64 h_S_, guard_apply, select_one, hdivf_apply,
    Predicate.bcast_scalar bcast_S_S64 h_S_, dof_apply, colsum_apply]
  unfold Cert.Spec.varR Cert.Spec.colSum
  refine congrArg (fun s => Ideal.div s Cert.Spec.nN) (Finset.sum_congr rfl fun p _ => ?_)
  rw [mulf_apply, subf_apply, rowMean_apply]

/-- The reference's normalisation is `Spec.bnR`. -/
theorem norm_eq (o : FVec Ideal S100000x64 .f32) : RDefs.norm (F := Ideal) o = Cert.Spec.bnR o := by
  funext i
  obtain ⟨p, q, rfl⟩ : ∃ (p : Fin 100000) (q : Fin 64), i = ix2 p q := ⟨i 0, i 1, eq_ix2 i⟩
  unfold RDefs.norm Cert.Spec.bnR
  -- at `(p, q)`: the larger of `(o(p,q) − μ_q)·(1/√(v_q + ε))` and the zero word, which is `0`
  rw [maximumf_apply, mulf_apply, subf_apply, scal_apply, Ideal.ofBits_zero_f32, ← ij_eq,
    Predicate.bcast_cols bcast_S64_S1x64_1 bcast_S1x64_S100000x64_0_1,
    Predicate.bcast_cols bcast_S64_S1x64_1 bcast_S1x64_S100000x64_0_1, ofFin_eq, meanOf_apply,
    hrsqrt_apply, addf_apply, varOf_apply, scal_apply, ij_eq]
  rfl

/-- The reference's result: normalise the aggregation of the matrix product. -/
theorem result_eq (a0 : FVec Ideal S100000x128 .f32) (a1 : FVec Ideal S128x64 .f32) (a2 : FVec Ideal S3200000 .f32)
    (a3 a4 : IVec S3200000 32) :
    RDefs.result (F := Ideal) a0 a1 a2 a3 a4 = Cert.Spec.bnR (RDefs.agg (F := Ideal) (Cert.Spec.matmul a0 a1) a2 a3 a4) := by
  unfold RDefs.result
  rw [norm_eq, dot_eq]

end Cert.RVal

end
-- ==== Proof.lean ====
/-
  A graph-convolution layer, two ways. Both programs form the pre-activations `x·W` (100000 nodes, 128 features
  in, 64 out), aggregate them over 3.2 million weighted edges — row `src(e)` of `x·W`, times `val(e)`, added into
  row `dst(e)` —, normalise every column to zero mean and unit variance (plus `ε` under the root) and clip at zero.

  The kernel program does the product, the column statistics and the final scale-shift-clip as three grid
  computations over row blocks of 5000, with the aggregation and a little column arithmetic on the host between
  them; it normalises through the sums `S₁ = ∑ o`, `S₂ = ∑ o²`: `μ = S₁/N`, `s = 1/√(S₂/N − μ² + ε)`, result
  `max (o·s + (−μ)·s) 0`. The reference is host arithmetic throughout and normalises through the centred second
  moment `v = ∑ (o − μ)²/N`: result `max ((o − μ)·(1/√(v + ε))) 0`.

  Over the extended reals the two agree when the aggregated array `o` is real entry by entry: then
  `S₂/N − μ² = v` and `o·s + (−μ)·s = (o − μ)·s` (`Spec.bn_eq`). It is real because the float inputs are finite
  (the precondition), a matrix product, a fetched row, a weighted row and a finite sum of reals are real
  (`Spec.matmul_real`, `Agg.aggR_real`), and — the one place the two aggregations differ — the kernel program's fetch
  marks rows whose source index is out of range, which the precondition's index range rules out
  (`Agg.aggK_eq_aggR`). The destination indices need nothing: both programs add into them by one and the same
  operation.

  The three frames are the two generated frame certificates and the reference's run with its result dropped; the
  idealisation rewrote nothing, so `preserves` is trivial.
-/
import proofs.«416483_j16758962389075_1_alg».proof.Defs
import proofs.«416483_j16758962389075_1_alg».proof.Proof.Gen.Kernel
import proofs.«416483_j16758962389075_1_alg».proof.Proof.Gen.Kernel.Skeleton
import proofs.«416483_j16758962389075_1_alg».proof.Proof.Gen.Kernel.Launch
import proofs.«416483_j16758962389075_1_alg».proof.Proof.Gen.Kernel.Points
import proofs.«416483_j16758962389075_1_alg».proof.Proof.Gen.Kernel.Frame
import proofs.«416483_j16758962389075_1_alg».proof.Proof.Gen.KernelIdeal
import proofs.«416483_j16758962389075_1_alg».proof.Proof.Gen.KernelIdeal.Skeleton
import proofs.«416483_j16758962389075_1_alg».proof.Proof.Gen.KernelIdeal.Launch
import proofs.«416483_j16758962389075_1_alg».proof.Proof.Gen.KernelIdeal.Points
import proofs.«416483_j16758962389075_1_alg».proof.Proof.Gen.KernelIdeal.Frame
import proofs.«416483_j16758962389075_1_alg».proof.Proof.Gen.ReferenceIdeal
import proofs.«416483_j16758962389075_1_alg».proof.Proof.Gen.Pre_finite_inputs
import proofs.«416483_j16758962389075_1_alg».proof.Proof.Spec
import proofs.«416483_j16758962389075_1_alg».proof.Proof.PreDecode
import proofs.«416483_j16758962389075_1_alg».proof.Proof.Agg
import proofs.«416483_j16758962389075_1_alg».proof.Proof.KRun
import proofs.«416483_j16758962389075_1_alg».proof.Proof.KHost
import proofs.«416483_j16758962389075_1_alg».proof.Proof.RefRun
import proofs.«416483_j16758962389075_1_alg».proof.Proof.RVal
import Idealize.ShloMosaic.Adequacy
import Idealize.ShloMosaic.Init

noncomputable section

namespace Cert.Proof

open Idealize.ShloMosaic Idealize.ShloMosaic.TcCoe Idealize.SL.Sem

/-- The value both programs end at: the normalisation (through the centred second moment) of the aggregation of the
    matrix product, as a function of the five argument arrays. -/
def common (x : Cert.Spec.SX.Idx → EReal) (w : Cert.Spec.SW.Idx → EReal) (val : FVec Ideal Cert.ReferenceIdeal.S3200000 .f32)
    (src dst : IVec Cert.ReferenceIdeal.S3200000 32) : Cert.Spec.SN.Idx → EReal :=
  Cert.Spec.bnR (Cert.ReferenceIdeal.RDefs.agg (F := Ideal) (Cert.Spec.matmul x w) val src dst)

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- Under the precondition the kernel program's result buffer ends at the common value: its aggregation is the
    reference's (the source indices are in range), the aggregated array is real, and on a real array the two
    normalisations are one. -/
theorem kernel_value (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.Gen.W6 (F := Ideal) m ρ c (Proc.devRef .tc Cert.KernelIdeal.main_v20)
      = common (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  rw [Cert.KernelIdeal.KHost.value]
  obtain ⟨hx, hw, hv, hs⟩ := Cert.PreDecode.decode _ _ _ _ _ (hpre c)
  rw [Cert.Agg.aggK_eq_aggR _ _ _ _ hs]
  exact Cert.Spec.bn_eq _ (Cert.Agg.aggR_real _ _ _ _ (Cert.Spec.matmul_real _ _ hx hw) hv)

/-- From memories agreeing on the arguments both programs end at the common value of those arguments. -/
theorem algebraic : Cert.algebraic_KernelIdeal_ReferenceIdeal := by
  intro m ρ m' ρ' hpre hagree
  refine ⟨fun c => common (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun r h c => ⟨(h c).1.trans (kernel_value m ρ hpre c), (h c).2⟩)
      (Cert.KernelIdeal.KRun.run_value (F := Ideal) m ρ)
  · refine (θ_run Cert.ReferenceIdeal.defs _ _).mono (fun r h c => ⟨?_, (h c).2⟩)
      (Cert.ReferenceIdeal.RefRun.run m' ρ')
    rw [(h c).1, Cert.RVal.result_eq, (hagree c).1, (hagree c).2.1, (hagree c).2.2.1, (hagree c).2.2.2.1, (hagree c).2.2.2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
